-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg8 : FVec F S128 .f32) (main_arg9 : FVec F S256x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x2 .f32 := Host.absf main_arg9
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg10
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : IVec S200000 32) (main_arg4 : IVec S200000 32) (main_arg5 : FVec F S128x128 .f32) (main_arg6 : FVec F S128 .f32) (main_arg7 : FVec F S128x128 .f32) (main_arg8 : FVec F S128 .f32) (main_arg9 : FVec F S256x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S256x128 : Shape := ⟨2, ![256, 128]⟩
abbrev S200000x1 : Shape := ⟨2, ![200000, 1]⟩
abbrev S200000x128 : Shape := ⟨2, ![200000, 128]⟩
abbrev S200000x2 : Shape := ⟨2, ![200000, 2]⟩

abbrev nBuf : Space → Nat
  | .hbm => 95
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S_, .f32⟩
  | .hbm, ⟨69, _⟩ => ⟨S256x128, .f32⟩
  | .hbm, ⟨70, _⟩ => ⟨S_, .i32⟩
  | .hbm, ⟨71, _⟩ => ⟨S_, .f32⟩
  | .hbm, ⟨72, _⟩ => ⟨S128, .f32⟩
  | .hbm, ⟨73, _⟩ => ⟨S128x128, .f32⟩
  | .hbm, ⟨74, _⟩ => ⟨S128x128, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x128, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S200000x128, .f32⟩
  | .hbm, ⟨94, _⟩ => ⟨S200000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128x128, .f32⟩
  | .local _ .vmem, ⟨34, _⟩ => ⟨S128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_call2_v0 : Ref sig .tc := ⟨.hbm, 68, rfl⟩
abbrev main_v39 : Ref sig .tc := ⟨.hbm, 69, rfl⟩
abbrev main_c_12 : Ref sig .tc := ⟨.hbm, 70, rfl⟩
abbrev main_call3_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_13 : Ref sig .tc := ⟨.hbm, 75, rfl⟩
abbrev main_v43 : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  slices_S256x128_S128x128_0_0 : S256x128.Slices ![0, 0] S128x128
  slices_S256x128_S128x128_128_0 : S256x128.Slices ![128, 0] S128x128
  bcast_S_S200000 : S_.BroadcastsInDim S200000 (![] : Fin 0 → Fin S200000.rank)
  bcast_S200000_S200000x1_0 : S200000.BroadcastsInDim S200000x1 (![0] : Fin 1 → Fin S200000x1.rank)
  shapeCasts_S128x128_S128x128 : S128x128.ShapeCasts S128x128
  shapeCasts_S128_S128 : S128.ShapeCasts S128
  slices_S200000x128_S200000x2_0_0 : S200000x128.Slices ![0, 0] S200000x2
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S200000x128.size a
  hwx4_5 : ∀ i : grid4.Coords, EltTy.bits .f32 = 32 ∨ (Rect.block (s := S200000x128) S5000x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S200000x1 : Shape := ⟨2, ![200000, 1]⟩
abbrev S200000x128 : Shape := ⟨2, ![200000, 128]⟩
abbrev S200000x256 : Shape := ⟨2, ![200000, 256]⟩
abbrev S200000x2 : Shape := ⟨2, ![200000, 2]⟩
abbrev S1x2 : Shape := ⟨2, ![1, 2]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S200000, .i32⟩
  | 4 => ⟨S200000, .i32⟩
  | 5 => ⟨S128x128, .f32⟩
  | 6 => ⟨S128, .f32⟩
  | 7 => ⟨S128x128, .f32⟩
  | 8 => ⟨S128, .f32⟩
  | 9 => ⟨S256x2, .f32⟩
  | 10 => ⟨S2, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S50000x128, .f32⟩
  | 30 => ⟨S_, .f32⟩
  | 31 => ⟨S50000, .f32⟩
  | 32 => ⟨S50000, .f32⟩
  | 33 => ⟨S50000x1, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S_, .f32⟩
  | 77 => ⟨S50000, .f32⟩
  | 78 => ⟨S50000, .f32⟩
  | 79 => ⟨S50000x128, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x128, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S50000x128, .f32⟩

abbrev hbmTy0_1 (i : Nat) : BufTy := match i % 128 with
  | 0 => ⟨S200000x128, .f32⟩
  | 1 => ⟨S200000x256, .f32⟩
  | 2 => ⟨S200000x2, .f32⟩
  | 3 => ⟨S1x2, .f32⟩
  | 4 => ⟨S200000x2, .f32⟩
  | 5 => ⟨S200000x2, .f32⟩
  | 6 => ⟨S200000x2, .f32⟩
  | 7 => ⟨S200000x2, .f32⟩
  | 8 => ⟨S_, .f32⟩
  | 9 => ⟨S200000x2, .f32⟩
  | 10 => ⟨S200000x2, .f32⟩
  | 11 => ⟨S_, .f32⟩
  | 12 => ⟨S200000x2, .f32⟩
  | 13 => ⟨S200000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v38 : Ref sig .tc := ⟨.hbm, 70, rfl⟩
abbrev main_cst_11 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_call4_v0 : Ref sig .tc := ⟨.hbm, 76, rfl⟩
abbrev main_call4_v1 : Ref sig .tc := ⟨.hbm, 77, rfl⟩
abbrev main_v42 : Ref sig .tc := ⟨.hbm, 78, rfl⟩
abbrev main_v43 : Ref sig .tc := ⟨.hbm, 79, rfl⟩
abbrev main_cst_13 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_c_14 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_16 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_17 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call5_cst : Ref sig .tc := ⟨.hbm, 108, rfl⟩
abbrev main_call5_v0 : Ref sig .tc := ⟨.hbm, 109, rfl⟩
abbrev main_v67 : Ref sig .tc := ⟨.hbm, 110, rfl⟩
abbrev main_c_18 : Ref sig .tc := ⟨.hbm, 111, rfl⟩
abbrev main_v68 : Ref sig .tc := ⟨.hbm, 112, rfl⟩
abbrev main_v69 : Ref sig .tc := ⟨.hbm, 113, rfl⟩
abbrev main_c_19 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_20 : Ref sig .tc := ⟨.hbm, 120, rfl⟩
abbrev main_v75 : Ref sig .tc := ⟨.hbm, 121, rfl⟩
abbrev main_v76 : Ref sig .tc := ⟨.hbm, 122, rfl⟩
abbrev main_c_21 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_22 : Ref sig .tc := ⟨.hbm, 136, rfl⟩
abbrev main_v89 : Ref sig .tc := ⟨.hbm, 137, rfl⟩
abbrev main_v90 : Ref sig .tc := ⟨.hbm, 138, rfl⟩
abbrev main_cst_23 : Ref sig .tc := ⟨.hbm, 139, rfl⟩
abbrev main_v91 : Ref sig .tc := ⟨.hbm, 140, rfl⟩
abbrev main_v92 : Ref sig .tc := ⟨.hbm, 141, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  bcast_S_S200000x2 : S_.BroadcastsInDim S200000x2 (![] : Fin 0 → Fin S200000x2.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  dot_S200000x256_S256x2_S200000x2_1_0_0_1_n_n_wf : DotDims.WF S200000x256 S256x2 S200000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x2_S200000x2_1_0_0_1_n_n : DotDims S200000x256 S256x2 S200000x2 where
  lhsContracting := [1]
  rhsContracting := [0]
  lhsNonContracting := [0]
  rhsNonContracting := [1]
  lhsBatch := []
  rhsBatch := []
  wf := dot_S200000x256_S256x2_S200000x2_1_0_0_1_n_n_wf

class Facts : Prop extends Facts₀ where

variable [Facts]
-- ==== Proof.Spec.lean ====
/-
  What both programs compute, index by index, over the extended reals.

  A graph-convolution layer is two pointwise-in-rows maps around a gather and a scatter-add along the edges:
  `proj` — node features times a weight matrix, each row then scaled by that node's out-degree factor,
  `(∑ₖ x[r,k] · w[k,j]) · p[r]` — and `act` — the aggregated rows scaled by the in-degree factor, shifted by a
  bias and clamped at zero, `max (a[r,j] · p[r] + b[j]) 0`. The edge-pair classifier `score` is the logistic
  function of `(∑ₖ hs[e,k] · wc[k,j] + ∑ₖ hd[e,k] · wc[128+k,j]) + bc[j]`: the two halves of one contraction
  over the 256 joined features of an edge's two endpoints.

  `sum_halves` is the only law of arithmetic the two programs' agreement needs: a sum over 256 terms is the sum
  over the first 128 plus the sum over the last 128 (associativity and commutativity of addition, which hold on
  the extended reals with no finiteness assumption).
-/
import Idealize.ShloMosaic.PureOps.Ideal
import Idealize.ShloMosaic.Lib.ValueIdx

noncomputable section

open Idealize.ShloMosaic Idealize.ShloMosaic.ValueIdx
open scoped BigOperators

namespace Cert.Spec

/-- node features, 50000 nodes by 128 features -/
abbrev Feat : Shape := ⟨2, ![50000, 128]⟩
/-- a layer's weight matrix -/
abbrev Wt : Shape := ⟨2, ![128, 128]⟩
/-- one number per node -/
abbrev PerNode : Shape := ⟨1, ![50000]⟩
/-- one number per feature -/
abbrev PerFeat : Shape := ⟨1, ![128]⟩
/-- the gathered endpoint features of the 200000 edge pairs -/
abbrev PairFeat : Shape := ⟨2, ![200000, 128]⟩
/-- the classifier's weights over the 256 joined features -/
abbrev ClsWt : Shape := ⟨2, ![256, 2]⟩
/-- the classifier's bias -/
abbrev ClsBias : Shape := ⟨1, ![2]⟩
/-- the two class scores of every edge pair -/
abbrev Scores : Shape := ⟨2, ![200000, 2]⟩

/-- `(x · w)[r, j] · p[r]`: the projected features, row `r` scaled by node `r`'s factor. -/
def proj (x : Feat.Idx → EReal) (w : Wt.Idx → EReal) (p : PerNode.Idx → EReal) : Feat.Idx → EReal := fun i =>
  let r : Fin 50000 := i 0
  let j : Fin 128 := i 1
  (∑ k : Fin 128, x (ix2 r k) * w (ix2 k j)) * p (ix1 r)

/-- `max (a[r, j] · p[r] + b[j]) 0`: scale row `r` by node `r`'s factor, add the bias, clamp at zero. The zero is
    the float word `0x00000000`, kept as written in both programs. -/
def act (a : Feat.Idx → EReal) (p : PerNode.Idx → EReal) (b : PerFeat.Idx → EReal) : Feat.Idx → EReal := fun i =>
  let r : Fin 50000 := i 0
  let j : Fin 128 := i 1
  max (a (ix2 r j) * p (ix1 r) + b (ix1 j)) (Ideal.ofBits .f32 0x00000000#32)

/-- The logistic function of the classifier's logit: the source endpoint's features against the first 128 rows of
    the weights, the destination's against the last 128, plus the bias. -/
def score (hs hd : PairFeat.Idx → EReal) (wc : ClsWt.Idx → EReal) (bc : ClsBias.Idx → EReal) : Scores.Idx → EReal := fun i =>
  let e : Fin 200000 := i 0
  let j : Fin 2 := i 1
  Ideal.logistic ((∑ k : Fin 128, hs (ix2 e k) * wc (ix2 (⟨k.val, by omega⟩ : Fin 256) j)
      + ∑ k : Fin 128, hd (ix2 e k) * wc (ix2 (⟨128 + k.val, by omega⟩ : Fin 256) j)) + bc (ix1 j))

/-- The same logistic logit over 128 output columns, from two separate 128-by-128 weight matrices and a 128-long bias:
    the form in which the columns are computed before the first two are kept. -/
def scoreCols (hs hd : PairFeat.Idx → EReal) (w1 w2 : Wt.Idx → EReal) (b : PerFeat.Idx → EReal) : PairFeat.Idx → EReal := fun i =>
  let e : Fin 200000 := i 0
  let j : Fin 128 := i 1
  Ideal.logistic ((∑ k : Fin 128, hs (ix2 e k) * w1 (ix2 k j) + ∑ k : Fin 128, hd (ix2 e k) * w2 (ix2 k j)) + b (ix1 j))

/-- A sum over 256 terms is the sum over the first 128 plus the sum over the last 128. -/
theorem sum_halves {M : Type*} [AddCommMonoid M] (f : Fin 256 → M) :
    ∑ k : Fin 256, f k = ∑ k : Fin 128, f ⟨k.val, by omega⟩ + ∑ k : Fin 128, f ⟨128 + k.val, by omega⟩ :=
  Fin.sum_univ_add (a := 128) (b := 128) f

end Cert.Spec

end
-- ==== Proof.KChain.lean ====
/-
  The three stretches of host arithmetic the program applies around its dense layers, each named as one function
  so that no later step has to open it:
  `deg idx` — per node, the number of edges whose endpoint list `idx` names it (a scatter-add of ones into zeros),
  clamped below at one, raised to the power −1/2;
  `msg src dst h` — the rows of `h` gathered at each edge's source (a negative index wrapped by 50000 first) and
  summed into zeros at the edge's destination;
  `gat idx h` — the rows of `h` gathered at the edge pairs' endpoints `idx`, wrapped the same way.
-/
import proofs.«171592_j34720515620910_1_alg».proof.Proof.Gen.KernelIdeal
import Idealize.ShloMosaic.PureOps.Ideal

noncomputable section

namespace Cert.KernelIdeal.Chain

open Idealize.ShloMosaic Cert.KernelIdeal Cert.KernelIdeal.Gen

/-- The inverse square root of each node's clamped edge count. -/
def deg (idx : (⟨S800000, .i32⟩ : BufTy).Contents (Elt Ideal)) : (⟨S50000, .f32⟩ : BufTy).Contents (Elt Ideal) :=
  Host.powf (F := Ideal) (maximumf (broadcastInDim S50000 ![] bcast_S_S50000 (id (constant (F := Ideal) S_ .f32 0x3F800000#32)))
      (Host.scatterAdd (F := Ideal) scatter_S50000_S800000x1_S800000_n_0_0_1 (broadcastInDim S50000 ![] bcast_S_S50000 (constant (F := Ideal) S_ .f32 0x00000000#32))
        (broadcastInDim S800000x1 ![0] bcast_S800000_S800000x1_0 idx) (broadcastInDim S800000 ![] bcast_S_S800000 (constant (F := Ideal) S_ .f32 0x3F800000#32))))
    (broadcastInDim S50000 ![] bcast_S_S50000 (constant (F := Ideal) S_ .f32 0xBF000000#32))

/-- One round of message passing: gather at the sources, scatter-add at the destinations. -/
def msg (src dst : (⟨S800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1 (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The rows of `h` at the edge pairs' endpoints. -/
def gat (idx : (⟨S200000, .i32⟩ : BufTy).Contents (Elt Ideal)) (h : (⟨S50000x128, .f32⟩ : BufTy).Contents (Elt Ideal)) :
    (⟨S200000x128, .f32⟩ : BufTy).Contents (Elt Ideal) :=
  Host.gather gather_S50000x128_S200000x1_S200000x128_1_0_n_n_0_1_1128 h
    (broadcastInDim S200000x1 ![0] bcast_S200000_S200000x1_0
      (select (cmpi .slt idx (broadcastInDim S200000 ![] bcast_S_S200000 (constantI S_ 32 0#32)))
        (addi idx (broadcastInDim S200000 ![] bcast_S_S200000 (constantI S_ 32 50000#32))) idx))

end Cert.KernelIdeal.Chain

end
-- ==== Proof.FoldA.lean ====
/- The kernel program's buffer contents walked from the launch through both graph-convolution layers: the degree factors, then projection, message passing and activation twice. Each host stretch is read back as the arithmetic it applies; each region contributes its output array, taken here as a hypothesis about that region. -/
import proofs.«171592_j34720515620910_1_alg».proof.Proof.Gen.KernelIdeal.Frame
import proofs.«171592_j34720515620910_1_alg».proof.Proof.Spec
import proofs.«171592_j34720515620910_1_alg».proof.Proof.KChain
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg) (c : Dev nD)

/-- A buffer that none of a host stretch's operations writes holds after the stretch what it held before: each
    operation's written buffer is a reference other than the given one. -/
local macro "host_skip " b:term : tactic => `(tactic|
  exact StableHlo.after_of_forall_not_mem (b := Proc.devRef .tc $b) _ _ (List.forall_iff_forall_mem.mp (by
    simp only [hostOps0, hostOps0_1, hostOps0_2, hostOps0_3, hostOps0_4, hostOps1, hostOps3, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))))

/-! ## The arguments' buffers up to the first region's entry

No operation of the five opening stretches writes an argument, so each holds its launch contents there. -/

/-- The node features are as launched at the first region's entry. -/
theorem arg0_at5 : W5 (F := Ideal) m ρ c (Proc.devRef .tc main_arg0) = m ((c : Thread nD τ).loc main_arg0) :=
  calc W5 (F := Ideal) m ρ c (Proc.devRef .tc main_arg0)
    _ = W4 (F := Ideal) m ρ c (Proc.devRef .tc main_arg0) := by host_skip main_arg0
    _ = W3 (F := Ideal) m ρ c (Proc.devRef .tc main_arg0) := by host_skip main_arg0
    _ = W2 (F := Ideal) m ρ c (Proc.devRef .tc main_arg0) := by host_skip main_arg0
    _ = W1 (F := Ideal) m ρ c (Proc.devRef .tc main_arg0) := by host_skip main_arg0
    _ = W0 (F := Ideal) m ρ c (Proc.devRef .tc main_arg0) := by host_skip main_arg0
    _ = m ((c : Thread nD τ).loc main_arg0) := rfl

/-- The edges' sources are as launched at the first region's entry. -/
theorem arg1_at5 : W5 (F := Ideal) m ρ c (Proc.devRef .tc main_arg1) = m ((c : Thread nD τ).loc main_arg1) :=
  calc W5 (F := Ideal) m ρ c (Proc.devRef .tc main_arg1)
    _ = W4 (F := Ideal) m ρ c (Proc.devRef .tc main_arg1) := by host_skip main_arg1
    _ = W3 (F := Ideal) m ρ c (Proc.devRef .tc main_arg1) := by host_skip main_arg1
    _ = W2 (F := Ideal) m ρ c (Proc.devRef .tc main_arg1) := by host_skip main_arg1
    _ = W1 (F := Ideal) m ρ c (Proc.devRef .tc main_arg1) := by host_skip main_arg1
    _ = W0 (F := Ideal) m ρ c (Proc.devRef .tc main_arg1) := by host_skip main_arg1
    _ = m ((c : Thread nD τ).loc main_arg1) := rfl

/-- The edges' destinations are as launched at the first region's entry. -/
theorem arg2_at5 : W5 (F := Ideal) m ρ c (Proc.devRef .tc main_arg2) = m ((c : Thread nD τ).loc main_arg2) :=
  calc W5 (F := Ideal) m ρ c (Proc.devRef .tc main_arg2)
    _ = W4 (F := Ideal) m ρ c (Proc.devRef .tc main_arg2) := by host_skip main_arg2
    _ = W3 (F := Ideal) m ρ c (Proc.devRef .tc main_arg2) := by host_skip main_arg2
    _ = W2 (F := Ideal) m ρ c (Proc.devRef .tc main_arg2) := by host_skip main_arg2
    _ = W1 (F := Ideal) m ρ c (Proc.devRef .tc main_arg2) := by host_skip main_arg2
    _ = W0 (F := Ideal) m ρ c (Proc.devRef .tc main_arg2) := by host_skip main_arg2
    _ = m ((c : Thread nD τ).loc main_arg2) := rfl

/-- The first layer's weights are as launched at the first region's entry. -/
theorem arg5_at5 : W5 (F := Ideal) m ρ c (Proc.devRef .tc main_arg5) = m ((c : Thread nD τ).loc main_arg5) :=
  calc W5 (F := Ideal) m ρ c (Proc.devRef .tc main_arg5)
    _ = W4 (F := Ideal) m ρ c (Proc.devRef .tc main_arg5) := by host_skip main_arg5
    _ = W3 (F := Ideal) m ρ c (Proc.devRef .tc main_arg5) := by host_skip main_arg5
    _ = W2 (F := Ideal) m ρ c (Proc.devRef .tc main_arg5) := by host_skip main_arg5
    _ = W1 (F := Ideal) m ρ c (Proc.devRef .tc main_arg5) := by host_skip main_arg5
    _ = W0 (F := Ideal) m ρ c (Proc.devRef .tc main_arg5) := by host_skip main_arg5
    _ = m ((c : Thread nD τ).loc main_arg5) := rfl

/-- The first layer's bias is as launched at the first region's entry. -/
theorem arg6_at5 : W5 (F := Ideal) m ρ c (Proc.devRef .tc main_arg6) = m ((c : Thread nD τ).loc main_arg6) :=
  calc W5 (F := Ideal) m ρ c (Proc.devRef .tc main_arg6)
    _ = W4 (F := Ideal) m ρ c (Proc.devRef .tc main_arg6) := by host_skip main_arg6
    _ = W3 (F := Ideal) m ρ c (Proc.devRef .tc main_arg6) := by host_skip main_arg6
    _ = W2 (F := Ideal) m ρ c (Proc.devRef .tc main_arg6) := by host_skip main_arg6
    _ = W1 (F := Ideal) m ρ c (Proc.devRef .tc main_arg6) := by host_skip main_arg6
    _ = W0 (F := Ideal) m ρ c (Proc.devRef .tc main_arg6) := by host_skip main_arg6
    _ = m ((c : Thread nD τ).loc main_arg6) := rfl

/-- The second layer's weights are as launched at the first region's entry. -/
theorem arg7_at5 : W5 (F := Ideal) m ρ c (Proc.devRef .tc main_arg7) = m ((c : Thread nD τ).loc main_arg7) :=
  calc W5 (F := Ideal) m ρ c (Proc.devRef .tc main_arg7)
    _ = W4 (F := Ideal) m ρ c (Proc.devRef .tc main_arg7) := by host_skip main_arg7
    _ = W3 (F := Ideal) m ρ c (Proc.devRef .tc main_arg7) := by host_skip main_arg7
    _ = W2 (F := Ideal) m ρ c (Proc.devRef .tc main_arg7) := by host_skip main_arg7
    _ = W1 (F := Ideal) m ρ c (Proc.devRef .tc main_arg7) := by host_skip main_arg7
    _ = W0 (F := Ideal) m ρ c (Proc.devRef .tc main_arg7) := by host_skip main_arg7
    _ = m ((c : Thread nD τ).loc main_arg7) := rfl

/-- The second layer's bias is as launched at the first region's entry. -/
theorem arg8_at5 : W5 (F := Ideal) m ρ c (Proc.devRef .tc main_arg8) = m ((c : Thread nD τ).loc main_arg8) :=
  calc W5 (F := Ideal) m ρ c (Proc.devRef .tc main_arg8)
    _ = W4 (F := Ideal) m ρ c (Proc.devRef .tc main_arg8) := by host_skip main_arg8
    _ = W3 (F := Ideal) m ρ c (Proc.devRef .tc main_arg8) := by host_skip main_arg8
    _ = W2 (F := Ideal) m ρ c (Proc.devRef .tc main_arg8) := by host_skip main_arg8
    _ = W1 (F := Ideal) m ρ c (Proc.devRef .tc main_arg8) := by host_skip main_arg8
    _ = W0 (F := Ideal) m ρ c (Proc.devRef .tc main_arg8) := by host_skip main_arg8
    _ = m ((c : Thread nD τ).loc main_arg8) := rfl

/-! ## What the host stretches write, over any contents they start from -/

section Stretches

variable (V : Valuation τ sig (Elt Ideal))

/-- The opening stretch fills a vector with a one for every edge. -/
theorem ones_of :
    StableHlo.after (hostOps0 (F := Ideal)) V (Proc.devRef .tc main_v0)
      = broadcastInDim (s := S_) (α := EReal) S800000 ![] bcast_S_S800000 (constant (F := Ideal) S_ .f32 0x3F800000#32) := by
  after_results <;> rfl

/-- The opening stretch counts, per node, the edges whose source it is: ones summed into zeros at the sources. -/
theorem srcCount_of :
    StableHlo.after (hostOps0 (F := Ideal)) V (Proc.devRef .tc main_v3)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0
            (V (Proc.devRef .tc main_arg1) : (⟨S800000, .i32⟩ : BufTy).Contents (Elt Ideal)))
          (broadcastInDim S800000 ![] bcast_S_S800000 (constant (F := Ideal) S_ .f32 0x3F800000#32)) := by
  after_results <;> rfl

/-- The opening stretch ends by writing the lower clamp, one. -/
theorem clampOne_of :
    StableHlo.after (hostOps0 (F := Ideal)) V (Proc.devRef .tc main_cst_1)
      = constant (F := Ideal) S_ .f32 0x3F800000#32 := by
  after_results <;> rfl

/-- The first clamp: the larger of one and the count. -/
theorem srcClamp_of :
    StableHlo.after (hostOps0_1 (F := Ideal)) V (Proc.devRef .tc main_v4)
      = maximumf (F := Ideal) (s := S50000) (φ := .f32)
          (broadcastInDim S50000 ![] bcast_S_S50000
            (id (V (Proc.devRef .tc main_cst_1) : (⟨S_, .f32⟩ : BufTy).Contents (Elt Ideal))))
          (V (Proc.devRef .tc main_v3) : (⟨S50000, .f32⟩ : BufTy).Contents (Elt Ideal)) := by
  after_results <;> rfl

/-- The third stretch counts, per node, the edges whose destination it is, with the ones of the opening stretch. -/
theorem dstCount_of :
    StableHlo.after (hostOps0_2 (F := Ideal)) V (Proc.devRef .tc main_v7)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0
            (V (Proc.devRef .tc main_arg2) : (⟨S800000, .i32⟩ : BufTy).Contents (Elt Ideal)))
          (V (Proc.devRef .tc main_v0) : (⟨S800000, .f32⟩ : BufTy).Contents (Elt Ideal)) := by
  after_results <;> rfl

/-- The third stretch ends by writing the lower clamp, one. -/
theorem clampOne'_of :
    StableHlo.after (hostOps0_2 (F := Ideal)) V (Proc.devRef .tc main_cst_3)
      = constant (F := Ideal) S_ .f32 0x3F800000#32 := by
  after_results <;> rfl

/-- The second clamp: the larger of one and the count. -/
theorem dstClamp_of :
    StableHlo.after (hostOps0_3 (F := Ideal)) V (Proc.devRef .tc main_v8)
      = maximumf (F := Ideal) (s := S50000) (φ := .f32)
          (broadcastInDim S50000 ![] bcast_S_S50000
            (id (V (Proc.devRef .tc main_cst_3) : (⟨S_, .f32⟩ : BufTy).Contents (Elt Ideal))))
          (V (Proc.devRef .tc main_v7) : (⟨S50000, .f32⟩ : BufTy).Contents (Elt Ideal)) := by
  after_results <;> rfl

/-- The fifth stretch raises the first clamped count to the power −1/2 and lays it out as a column. -/
theorem srcCol_of :
    StableHlo.after (hostOps0_4 (F := Ideal)) V (Proc.devRef .tc main_v11)
      = fun i => shapeCast (α := EReal) S50000x1
          (Host.powf (F := Ideal) (s := S50000) (φ := .f32)
            (V (Proc.devRef .tc main_v4) : (⟨S50000, .f32⟩ : BufTy).Contents (Elt Ideal))
            (broadcastInDim S50000 ![] bcast_S_S50000 (constant (F := Ideal) S_ .f32 0xBF000000#32)))
          shapeCasts_S50000_S50000x1 i := by
  after_results <;> rfl

/-- The fifth stretch does the same with the second clamped count. -/
theorem dstCol_of :
    StableHlo.after (hostOps0_4 (F := Ideal)) V (Proc.devRef .tc main_v14)
      = fun i => shapeCast (α := EReal) S50000x1
          (Host.powf (F := Ideal) (s := S50000) (φ := .f32)
            (V (Proc.devRef .tc main_v8) : (⟨S50000, .f32⟩ : BufTy).Contents (Elt Ideal))
            (broadcastInDim S50000 ![] bcast_S_S50000 (constant (F := Ideal) S_ .f32 0xBF000000#32)))
          shapeCasts_S50000_S50000x1 i := by
  after_results <;> rfl

/-- The stretch before the first activation is one round of message passing over the first projection's output. -/
theorem msg1_of :
    StableHlo.after (hostOps1 (F := Ideal)) V (Proc.devRef .tc main_v25)
      = Chain.msg (V (Proc.devRef .tc main_arg1)) (V (Proc.devRef .tc main_arg2)) (V (Proc.devRef .tc main_v15)) := by
  after_results_simp
  unfold Chain.msg
  with_reducible rfl

/-- The stretch before the second activation is one round of message passing over the second projection's output. -/
theorem msg2_of :
    StableHlo.after (hostOps3 (F := Ideal)) V (Proc.devRef .tc main_v37)
      = Chain.msg (V (Proc.devRef .tc main_arg1)) (V (Proc.devRef .tc main_arg2)) (V (Proc.devRef .tc main_v27)) := by
  after_results_simp
  unfold Chain.msg
  with_reducible rfl

end Stretches

/-! ## The degree factors at the first region's entry -/

/-- The one-vector over the edges is still there when the destinations are counted. -/
theorem ones_at2 :
    W2 (F := Ideal) m ρ c (Proc.devRef .tc main_v0)
      = broadcastInDim (s := S_) (α := EReal) S800000 ![] bcast_S_S800000 (constant (F := Ideal) S_ .f32 0x3F800000#32) := by
  have h : W2 (F := Ideal) m ρ c (Proc.devRef .tc main_v0) = W1 (F := Ideal) m ρ c (Proc.devRef .tc main_v0) := by host_skip main_v0
  exact h.trans (ones_of (W0 (F := Ideal) m ρ c))

/-- The edges' destinations are as launched when they are counted. -/
theorem arg2_at2 : W2 (F := Ideal) m ρ c (Proc.devRef .tc main_arg2) = m ((c : Thread nD τ).loc main_arg2) := by
  have h2 : W2 (F := Ideal) m ρ c (Proc.devRef .tc main_arg2) = W1 (F := Ideal) m ρ c (Proc.devRef .tc main_arg2) := by host_skip main_arg2
  have h1 : W1 (F := Ideal) m ρ c (Proc.devRef .tc main_arg2) = W0 (F := Ideal) m ρ c (Proc.devRef .tc main_arg2) := by host_skip main_arg2
  exact h2.trans h1

/-- The clamped source count after the second stretch: the larger of one and the number of edges leaving each node. -/
theorem srcClamp_at2 :
    W2 (F := Ideal) m ρ c (Proc.devRef .tc main_v4)
      = maximumf (F := Ideal) (s := S50000) (φ := .f32)
          (broadcastInDim S50000 ![] bcast_S_S50000 (id (constant (F := Ideal) S_ .f32 0x3F800000#32)))
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (m ((c : Thread nD τ).loc main_arg1)))
            (broadcastInDim S800000 ![] bcast_S_S800000 (constant (F := Ideal) S_ .f32 0x3F800000#32))) := by
  have e1 : W1 (F := Ideal) m ρ c (Proc.devRef .tc main_cst_1) = constant (F := Ideal) S_ .f32 0x3F800000#32 :=
    clampOne_of (W0 (F := Ideal) m ρ c)
  have e3 : W1 (F := Ideal) m ρ c (Proc.devRef .tc main_v3)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (m ((c : Thread nD τ).loc main_arg1)))
          (broadcastInDim S800000 ![] bcast_S_S800000 (constant (F := Ideal) S_ .f32 0x3F800000#32)) :=
    srcCount_of (W0 (F := Ideal) m ρ c)
  refine (srcClamp_of (W1 (F := Ideal) m ρ c)).trans ?_
  rw [e1, e3]

/-- The out-degree factor as a column at the first region's entry. -/
theorem srcCol_at5 :
    W5 (F := Ideal) m ρ c (Proc.devRef .tc main_v11)
      = fun i => shapeCast (α := EReal) S50000x1 (Chain.deg (m ((c : Thread nD τ).loc main_arg1))) shapeCasts_S50000_S50000x1 i := by
  have h4 : W4 (F := Ideal) m ρ c (Proc.devRef .tc main_v4) = W3 (F := Ideal) m ρ c (Proc.devRef .tc main_v4) := by host_skip main_v4
  have h3 : W3 (F := Ideal) m ρ c (Proc.devRef .tc main_v4) = W2 (F := Ideal) m ρ c (Proc.devRef .tc main_v4) := by host_skip main_v4
  refine (srcCol_of (W4 (F := Ideal) m ρ c)).trans ?_
  rw [h4, h3, srcClamp_at2 m ρ c]
  rfl

/-- The clamped destination count after the fourth stretch. -/
theorem dstClamp_at4 :
    W4 (F := Ideal) m ρ c (Proc.devRef .tc main_v8)
      = maximumf (F := Ideal) (s := S50000) (φ := .f32)
          (broadcastInDim S50000 ![] bcast_S_S50000 (id (constant (F := Ideal) S_ .f32 0x3F800000#32)))
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (m ((c : Thread nD τ).loc main_arg2)))
            (broadcastInDim S800000 ![] bcast_S_S800000 (constant (F := Ideal) S_ .f32 0x3F800000#32))) := by
  have e3 : W3 (F := Ideal) m ρ c (Proc.devRef .tc main_cst_3) = constant (F := Ideal) S_ .f32 0x3F800000#32 :=
    clampOne'_of (W2 (F := Ideal) m ρ c)
  have e7 : W3 (F := Ideal) m ρ c (Proc.devRef .tc main_v7)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (W2 (F := Ideal) m ρ c (Proc.devRef .tc main_arg2)))
          (W2 (F := Ideal) m ρ c (Proc.devRef .tc main_v0)) :=
    dstCount_of (W2 (F := Ideal) m ρ c)
  refine (dstClamp_of (W3 (F := Ideal) m ρ c)).trans ?_
  rw [e3, e7, arg2_at2 m ρ c, ones_at2 m ρ c]

/-- The in-degree factor as a column at the first region's entry. -/
theorem dstCol_at5 :
    W5 (F := Ideal) m ρ c (Proc.devRef .tc main_v14)
      = fun i => shapeCast (α := EReal) S50000x1 (Chain.deg (m ((c : Thread nD τ).loc main_arg2))) shapeCasts_S50000_S50000x1 i := by
  refine (dstCol_of (W4 (F := Ideal) m ρ c)).trans ?_
  rw [dstClamp_at4 m ρ c]
  rfl

/-- A vector laid out as a one-column matrix, read at row `r`, is its entry `r`. -/
theorem col_apply (d : S50000.Idx → EReal) (r : Fin 50000) :
    shapeCast (α := EReal) S50000x1 d shapeCasts_S50000_S50000x1 (ix2 r 0) = d (ix1 r) := by
  refine shapeCast_apply d shapeCasts_S50000_S50000x1 (ix2 r 0) (ix1 r) ?_
  rw [Shape.rowMajor_val_one, Shape.rowMajor_val_two]
  show r.val = r.val * 1 + 0
  omega

/-! ## The degree columns and the arguments at the later boundaries

The two columns are written once and then only read: the regions take them as input arrays, which a region leaves
as it found them, and no later stretch writes them. The same holds for the arguments. -/

/-- The out-degree column at the second projection's entry. -/
theorem srcCol_at8 :
    W8 (F := Ideal) m ρ c (Proc.devRef .tc main_v11)
      = fun i => shapeCast (α := EReal) S50000x1 (Chain.deg (m ((c : Thread nD τ).loc main_arg1))) shapeCasts_S50000_S50000x1 i := by
  have h8 : W8 (F := Ideal) m ρ c (Proc.devRef .tc main_v11) = W7 (F := Ideal) m ρ c (Proc.devRef .tc main_v11) := W8_of_ne m ρ c main_v11 (by decide)
  have h7 : W7 (F := Ideal) m ρ c (Proc.devRef .tc main_v11) = W6 (F := Ideal) m ρ c (Proc.devRef .tc main_v11) := by host_skip main_v11
  have h6 : W6 (F := Ideal) m ρ c (Proc.devRef .tc main_v11) = W5 (F := Ideal) m ρ c (Proc.devRef .tc main_v11) :=
    (W6_arr m ρ c 2).trans (((dat0 (V5 m ρ) c).arrAt_in 2 rfl _).trans (A_eq0 (V5 m ρ) c 2))
  exact h8.trans (h7.trans (h6.trans (srcCol_at5 m ρ c)))

/-- The in-degree column at the first activation's entry. -/
theorem dstCol_at7 :
    W7 (F := Ideal) m ρ c (Proc.devRef .tc main_v14)
      = fun i => shapeCast (α := EReal) S50000x1 (Chain.deg (m ((c : Thread nD τ).loc main_arg2))) shapeCasts_S50000_S50000x1 i := by
  have h7 : W7 (F := Ideal) m ρ c (Proc.devRef .tc main_v14) = W6 (F := Ideal) m ρ c (Proc.devRef .tc main_v14) := by host_skip main_v14
  have h6 : W6 (F := Ideal) m ρ c (Proc.devRef .tc main_v14) = W5 (F := Ideal) m ρ c (Proc.devRef .tc main_v14) := W6_of_ne m ρ c main_v14 (by decide)
  exact h7.trans (h6.trans (dstCol_at5 m ρ c))

/-- The in-degree column at the second activation's entry. -/
theorem dstCol_at10 :
    W10 (F := Ideal) m ρ c (Proc.devRef .tc main_v14)
      = fun i => shapeCast (α := EReal) S50000x1 (Chain.deg (m ((c : Thread nD τ).loc main_arg2))) shapeCasts_S50000_S50000x1 i := by
  have h10 : W10 (F := Ideal) m ρ c (Proc.devRef .tc main_v14) = W9 (F := Ideal) m ρ c (Proc.devRef .tc main_v14) := by host_skip main_v14
  have h9 : W9 (F := Ideal) m ρ c (Proc.devRef .tc main_v14) = W8 (F := Ideal) m ρ c (Proc.devRef .tc main_v14) := W9_of_ne m ρ c main_v14 (by decide)
  have h8 : W8 (F := Ideal) m ρ c (Proc.devRef .tc main_v14) = W7 (F := Ideal) m ρ c (Proc.devRef .tc main_v14) :=
    (W8_arr m ρ c 1).trans (((dat1 (V7 m ρ) c).arrAt_in 1 rfl _).trans (A_eq1 (V7 m ρ) c 1))
  exact h10.trans (h9.trans (h8.trans (dstCol_at7 m ρ c)))

/-- Row `r` of the out-degree column at the first projection's entry. -/
theorem srcCol_V5 (r : Fin 50000) :
    (V5 (F := Ideal) m ρ c main_v11 : S50000x1.Idx → EReal) (ix2 r 0) = Chain.deg (m ((c : Thread nD τ).loc main_arg1)) (ix1 r) :=
  (congrFun (srcCol_at5 m ρ c) (ix2 r 0)).trans (col_apply _ r)

/-- Row `r` of the out-degree column at the second projection's entry. -/
theorem srcCol_V8 (r : Fin 50000) :
    (V8 (F := Ideal) m ρ c main_v11 : S50000x1.Idx → EReal) (ix2 r 0) = Chain.deg (m ((c : Thread nD τ).loc main_arg1)) (ix1 r) :=
  (congrFun (srcCol_at8 m ρ c) (ix2 r 0)).trans (col_apply _ r)

/-- Row `r` of the in-degree column at the first activation's entry. -/
theorem dstCol_V7 (r : Fin 50000) :
    (V7 (F := Ideal) m ρ c main_v14 : S50000x1.Idx → EReal) (ix2 r 0) = Chain.deg (m ((c : Thread nD τ).loc main_arg2)) (ix1 r) :=
  (congrFun (dstCol_at7 m ρ c) (ix2 r 0)).trans (col_apply _ r)

/-- Row `r` of the in-degree column at the second activation's entry. -/
theorem dstCol_V10 (r : Fin 50000) :
    (V10 (F := Ideal) m ρ c main_v14 : S50000x1.Idx → EReal) (ix2 r 0) = Chain.deg (m ((c : Thread nD τ).loc main_arg2)) (ix1 r) :=
  (congrFun (dstCol_at10 m ρ c) (ix2 r 0)).trans (col_apply _ r)

theorem arg0_V5 : V5 (F := Ideal) m ρ c main_arg0 = m ((c : Thread nD τ).loc main_arg0) := arg0_at5 m ρ c
theorem arg5_V5 : V5 (F := Ideal) m ρ c main_arg5 = m ((c : Thread nD τ).loc main_arg5) := arg5_at5 m ρ c

/-- The edge lists when the first round of message passing reads them. -/
theorem arg1_at6 : W6 (F := Ideal) m ρ c (Proc.devRef .tc main_arg1) = m ((c : Thread nD τ).loc main_arg1) :=
  (W6_of_ne m ρ c main_arg1 (by decide)).trans (arg1_at5 m ρ c)
theorem arg2_at6 : W6 (F := Ideal) m ρ c (Proc.devRef .tc main_arg2) = m ((c : Thread nD τ).loc main_arg2) :=
  (W6_of_ne m ρ c main_arg2 (by decide)).trans (arg2_at5 m ρ c)

/-- The first layer's bias at the first activation's entry. -/
theorem arg6_V7 : V7 (F := Ideal) m ρ c main_arg6 = m ((c : Thread nD τ).loc main_arg6) := by
  have h7 : W7 (F := Ideal) m ρ c (Proc.devRef .tc main_arg6) = W6 (F := Ideal) m ρ c (Proc.devRef .tc main_arg6) := by host_skip main_arg6
  exact h7.trans ((W6_of_ne m ρ c main_arg6 (by decide)).trans (arg6_at5 m ρ c))

/-- The second layer's weights at the second projection's entry. -/
theorem arg7_V8 : V8 (F := Ideal) m ρ c main_arg7 = m ((c : Thread nD τ).loc main_arg7) := by
  have h8 : W8 (F := Ideal) m ρ c (Proc.devRef .tc main_arg7) = W7 (F := Ideal) m ρ c (Proc.devRef .tc main_arg7) := W8_of_ne m ρ c main_arg7 (by decide)
  have h7 : W7 (F := Ideal) m ρ c (Proc.devRef .tc main_arg7) = W6 (F := Ideal) m ρ c (Proc.devRef .tc main_arg7) := by host_skip main_arg7
  exact h8.trans (h7.trans ((W6_of_ne m ρ c main_arg7 (by decide)).trans (arg7_at5 m ρ c)))

/-- The edge lists when the second round of message passing reads them. -/
theorem arg1_at9 : W9 (F := Ideal) m ρ c (Proc.devRef .tc main_arg1) = m ((c : Thread nD τ).loc main_arg1) := by
  have h9 : W9 (F := Ideal) m ρ c (Proc.devRef .tc main_arg1) = W8 (F := Ideal) m ρ c (Proc.devRef .tc main_arg1) := W9_of_ne m ρ c main_arg1 (by decide)
  have h8 : W8 (F := Ideal) m ρ c (Proc.devRef .tc main_arg1) = W7 (F := Ideal) m ρ c (Proc.devRef .tc main_arg1) := W8_of_ne m ρ c main_arg1 (by decide)
  have h7 : W7 (F := Ideal) m ρ c (Proc.devRef .tc main_arg1) = W6 (F := Ideal) m ρ c (Proc.devRef .tc main_arg1) := by host_skip main_arg1
  exact h9.trans (h8.trans (h7.trans (arg1_at6 m ρ c)))
theorem arg2_at9 : W9 (F := Ideal) m ρ c (Proc.devRef .tc main_arg2) = m ((c : Thread nD τ).loc main_arg2) := by
  have h9 : W9 (F := Ideal) m ρ c (Proc.devRef .tc main_arg2) = W8 (F := Ideal) m ρ c (Proc.devRef .tc main_arg2) := W9_of_ne m ρ c main_arg2 (by decide)
  have h8 : W8 (F := Ideal) m ρ c (Proc.devRef .tc main_arg2) = W7 (F := Ideal) m ρ c (Proc.devRef .tc main_arg2) := W8_of_ne m ρ c main_arg2 (by decide)
  have h7 : W7 (F := Ideal) m ρ c (Proc.devRef .tc main_arg2) = W6 (F := Ideal) m ρ c (Proc.devRef .tc main_arg2) := by host_skip main_arg2
  exact h9.trans (h8.trans (h7.trans (arg2_at6 m ρ c)))

/-- The second layer's bias at the second activation's entry. -/
theorem arg8_V10 : V10 (F := Ideal) m ρ c main_arg8 = m ((c : Thread nD τ).loc main_arg8) := by
  have h10 : W10 (F := Ideal) m ρ c (Proc.devRef .tc main_arg8) = W9 (F := Ideal) m ρ c (Proc.devRef .tc main_arg8) := by host_skip main_arg8
  have h9 : W9 (F := Ideal) m ρ c (Proc.devRef .tc main_arg8) = W8 (F := Ideal) m ρ c (Proc.devRef .tc main_arg8) := W9_of_ne m ρ c main_arg8 (by decide)
  have h8 : W8 (F := Ideal) m ρ c (Proc.devRef .tc main_arg8) = W7 (F := Ideal) m ρ c (Proc.devRef .tc main_arg8) := W8_of_ne m ρ c main_arg8 (by decide)
  have h7 : W7 (F := Ideal) m ρ c (Proc.devRef .tc main_arg8) = W6 (F := Ideal) m ρ c (Proc.devRef .tc main_arg8) := by host_skip main_arg8
  exact h10.trans (h9.trans (h8.trans (h7.trans ((W6_of_ne m ρ c main_arg8 (by decide)).trans (arg8_at5 m ρ c)))))

/-! ## The two layers, stage by stage -/

/-- The first projection: the launched features times the first weights, each row scaled by its out-degree factor. -/
def proj1 : Spec.Feat.Idx → EReal :=
  Spec.proj (m ((c : Thread nD τ).loc main_arg0)) (m ((c : Thread nD τ).loc main_arg5)) (Chain.deg (m ((c : Thread nD τ).loc main_arg1)))

/-- The first layer's output: the first projection passed along the edges, scaled by the in-degree factor, shifted by
    the first bias and clamped at zero. -/
def act1 : Spec.Feat.Idx → EReal :=
  Spec.act (Chain.msg (m ((c : Thread nD τ).loc main_arg1)) (m ((c : Thread nD τ).loc main_arg2)) (proj1 m c)) (Chain.deg (m ((c : Thread nD τ).loc main_arg2))) (m ((c : Thread nD τ).loc main_arg6))

/-- The second projection, of the first layer's output. -/
def proj2 : Spec.Feat.Idx → EReal :=
  Spec.proj (act1 m c) (m ((c : Thread nD τ).loc main_arg7)) (Chain.deg (m ((c : Thread nD τ).loc main_arg1)))

/-- The closed form the first region is taken to have, over whatever contents it finds at its entry: its output is the
    projection of its two input arrays, scaled by the factor its column input holds. -/
abbrev Reg0 : Prop := ∀ (V : (c : Dev nD) → (b : Ref sig .tc) → Buf (Elt Ideal) ((c : Thread nD τ).loc b)) (c : Dev nD) (p : Spec.PerNode.Idx → EReal), (∀ r : Fin 50000, (V c main_v11 : S50000x1.Idx → EReal) (ix2 r 0) = p (ix1 r)) → (dat0 (F := Ideal) V c).arrAt 3 cfg0.N = Spec.proj (V c main_arg0) (V c main_arg5) p
/-- The closed form the second region is taken to have: its output is the activation of its input array, scaled by the
    factor its column input holds and shifted by its bias input. -/
abbrev Reg1 : Prop := ∀ (V : (c : Dev nD) → (b : Ref sig .tc) → Buf (Elt Ideal) ((c : Thread nD τ).loc b)) (c : Dev nD) (p : Spec.PerNode.Idx → EReal), (∀ r : Fin 50000, (V c main_v14 : S50000x1.Idx → EReal) (ix2 r 0) = p (ix1 r)) → (dat1 (F := Ideal) V c).arrAt 3 cfg1.N = Spec.act (V c main_v25) p (V c main_arg6)
/-- The closed form the third region is taken to have: the first region's, over the second layer's buffers. -/
abbrev Reg2 : Prop := ∀ (V : (c : Dev nD) → (b : Ref sig .tc) → Buf (Elt Ideal) ((c : Thread nD τ).loc b)) (c : Dev nD) (p : Spec.PerNode.Idx → EReal), (∀ r : Fin 50000, (V c main_v11 : S50000x1.Idx → EReal) (ix2 r 0) = p (ix1 r)) → (dat2 (F := Ideal) V c).arrAt 3 cfg2.N = Spec.proj (V c main_v26) (V c main_arg7) p

/-- At the first region's exit its output buffer holds the first projection. -/
theorem proj1_at6 (R0 : Reg0) : W6 (F := Ideal) m ρ c (Proc.devRef .tc main_v15) = proj1 m c := by
  refine (W6_arr m ρ c 3).trans ((R0 (V5 (F := Ideal) m ρ) c (Chain.deg (m ((c : Thread nD τ).loc main_arg1))) (srcCol_V5 m ρ c)).trans ?_)
  rw [arg0_V5 m ρ c, arg5_V5 m ρ c]
  rfl

/-- At the second region's entry its input holds the first projection passed along the edges. -/
theorem msg1_V7 (R0 : Reg0) : V7 (F := Ideal) m ρ c main_v25 = Chain.msg (m ((c : Thread nD τ).loc main_arg1)) (m ((c : Thread nD τ).loc main_arg2)) (proj1 m c) := by
  refine (msg1_of (W6 (F := Ideal) m ρ c)).trans ?_
  rw [arg1_at6 m ρ c, arg2_at6 m ρ c, proj1_at6 m ρ c R0]

/-- At the second region's exit its output buffer holds the first layer's output. -/
theorem act1_V8 (R0 : Reg0) (R1 : Reg1) : V8 (F := Ideal) m ρ c main_v26 = act1 m c := by
  refine (W8_arr m ρ c 3).trans ((R1 (V7 (F := Ideal) m ρ) c (Chain.deg (m ((c : Thread nD τ).loc main_arg2))) (dstCol_V7 m ρ c)).trans ?_)
  rw [msg1_V7 m ρ c R0, arg6_V7 m ρ c]
  rfl

/-- At the third region's exit its output buffer holds the second projection. -/
theorem proj2_at9 (R0 : Reg0) (R1 : Reg1) (R2 : Reg2) : W9 (F := Ideal) m ρ c (Proc.devRef .tc main_v27) = proj2 m c := by
  refine (W9_arr m ρ c 3).trans ((R2 (V8 (F := Ideal) m ρ) c (Chain.deg (m ((c : Thread nD τ).loc main_arg1))) (srcCol_V8 m ρ c)).trans ?_)
  rw [act1_V8 m ρ c R0 R1, arg7_V8 m ρ c]
  rfl

/-- At the fourth region's entry its input holds the second projection passed along the edges. -/
theorem msg2_V10 (R0 : Reg0) (R1 : Reg1) (R2 : Reg2) :
    V10 (F := Ideal) m ρ c main_v37 = Chain.msg (m ((c : Thread nD τ).loc main_arg1)) (m ((c : Thread nD τ).loc main_arg2)) (proj2 m c) := by
  refine (msg2_of (W9 (F := Ideal) m ρ c)).trans ?_
  rw [arg1_at9 m ρ c, arg2_at9 m ρ c, proj2_at9 m ρ c R0 R1 R2]

/-- The node features after both layers, as a function of the program's arguments. -/
def hidden : Spec.Feat.Idx → EReal :=
  Spec.act (Chain.msg (m ((c : Thread nD τ).loc main_arg1)) (m ((c : Thread nD τ).loc main_arg2))
      (Spec.proj (Spec.act (Chain.msg (m ((c : Thread nD τ).loc main_arg1)) (m ((c : Thread nD τ).loc main_arg2))
          (Spec.proj (m ((c : Thread nD τ).loc main_arg0)) (m ((c : Thread nD τ).loc main_arg5)) (Chain.deg (m ((c : Thread nD τ).loc main_arg1)))))
        (Chain.deg (m ((c : Thread nD τ).loc main_arg2))) (m ((c : Thread nD τ).loc main_arg6)))
      (m ((c : Thread nD τ).loc main_arg7)) (Chain.deg (m ((c : Thread nD τ).loc main_arg1)))))
    (Chain.deg (m ((c : Thread nD τ).loc main_arg2))) (m ((c : Thread nD τ).loc main_arg8))

/-- At the exit of the fourth region (the second layer's activation) the buffer of the program's first result holds
    `hidden`. -/
theorem hidden_eq
    (R0 : ∀ (V : (c : Dev nD) → (b : Ref sig .tc) → Buf (Elt Ideal) ((c : Thread nD τ).loc b)) (c : Dev nD) (p : Spec.PerNode.Idx → EReal), (∀ r : Fin 50000, (V c main_v11 : S50000x1.Idx → EReal) (ix2 r 0) = p (ix1 r)) → (dat0 (F := Ideal) V c).arrAt 3 cfg0.N = Spec.proj (V c main_arg0) (V c main_arg5) p)
    (R1 : ∀ (V : (c : Dev nD) → (b : Ref sig .tc) → Buf (Elt Ideal) ((c : Thread nD τ).loc b)) (c : Dev nD) (p : Spec.PerNode.Idx → EReal), (∀ r : Fin 50000, (V c main_v14 : S50000x1.Idx → EReal) (ix2 r 0) = p (ix1 r)) → (dat1 (F := Ideal) V c).arrAt 3 cfg1.N = Spec.act (V c main_v25) p (V c main_arg6))
    (R2 : ∀ (V : (c : Dev nD) → (b : Ref sig .tc) → Buf (Elt Ideal) ((c : Thread nD τ).loc b)) (c : Dev nD) (p : Spec.PerNode.Idx → EReal), (∀ r : Fin 50000, (V c main_v11 : S50000x1.Idx → EReal) (ix2 r 0) = p (ix1 r)) → (dat2 (F := Ideal) V c).arrAt 3 cfg2.N = Spec.proj (V c main_v26) (V c main_arg7) p)
    (R3 : ∀ (V : (c : Dev nD) → (b : Ref sig .tc) → Buf (Elt Ideal) ((c : Thread nD τ).loc b)) (c : Dev nD) (p : Spec.PerNode.Idx → EReal), (∀ r : Fin 50000, (V c main_v14 : S50000x1.Idx → EReal) (ix2 r 0) = p (ix1 r)) → (dat3 (F := Ideal) V c).arrAt 3 cfg3.N = Spec.act (V c main_v37) p (V c main_arg8)) :
    W11 (F := Ideal) m ρ c (Proc.devRef .tc main_v38) = hidden m c := by
  refine (W11_arr m ρ c 3).trans ((R3 (V10 (F := Ideal) m ρ) c (Chain.deg (m ((c : Thread nD τ).loc main_arg2))) (dstCol_V10 m ρ c)).trans ?_)
  rw [msg2_V10 m ρ c R0 R1 R2, arg8_V10 m ρ c]
  rfl

end Cert.KernelIdeal.Fold

end
-- ==== Proof.FoldB.lean ====
/- The kernel program's buffer contents walked from the exit of the second layer to the return: the gathers at the edge pairs' endpoints, the padding and halving of the classifier's weights, the classifier region, and the final cut to two columns. -/
import proofs.«171592_j34720515620910_1_alg».proof.Proof.Gen.KernelIdeal.Frame
import proofs.«171592_j34720515620910_1_alg».proof.Proof.Spec
import proofs.«171592_j34720515620910_1_alg».proof.Proof.KChain
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.FoldTail

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg) (c : Dev nD)

/-- A stretch of host operations leaves a buffer that none of them writes as it was: every operation's written
    buffer is a reference other than the given one. -/
syntax "stretch_keeps " ident ident : tactic
macro_rules
  | `(tactic| stretch_keeps $h:ident $b:ident) => `(tactic|
      exact StableHlo.after_of_forall_not_mem (b := Proc.devRef .tc $b) _ _ (List.forall_iff_forall_mem.mp (by
        simp only [$h:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide))))

/-! ## The second layer's output buffer: read by the two gathers, written by nothing after its region -/

theorem v38_at12 : W12 (F := Ideal) m ρ c (Proc.devRef .tc main_v38) = W11 (F := Ideal) m ρ c (Proc.devRef .tc main_v38) := by
  stretch_keeps hostOps4 main_v38
theorem v38_at13 : W13 (F := Ideal) m ρ c (Proc.devRef .tc main_v38) = W12 (F := Ideal) m ρ c (Proc.devRef .tc main_v38) := by
  stretch_keeps hostOps4_1 main_v38
theorem v38_at14 : W14 (F := Ideal) m ρ c (Proc.devRef .tc main_v38) = W13 (F := Ideal) m ρ c (Proc.devRef .tc main_v38) := by
  stretch_keeps hostOps4_2 main_v38
theorem v38_at15 : W15 (F := Ideal) m ρ c (Proc.devRef .tc main_v38) = W14 (F := Ideal) m ρ c (Proc.devRef .tc main_v38) := by
  stretch_keeps hostOps4_3 main_v38
theorem v38_at16 : W16 (F := Ideal) m ρ c (Proc.devRef .tc main_v38) = W15 (F := Ideal) m ρ c (Proc.devRef .tc main_v38) := by
  stretch_keeps hostOps4_4 main_v38
theorem v38_at17 : W17 (F := Ideal) m ρ c (Proc.devRef .tc main_v38) = W16 (F := Ideal) m ρ c (Proc.devRef .tc main_v38) :=
  W17_of_ne m ρ c main_v38 (by decide)
theorem v38_at18 : W18 (F := Ideal) m ρ c (Proc.devRef .tc main_v38) = W17 (F := Ideal) m ρ c (Proc.devRef .tc main_v38) := by
  stretch_keeps hostOps5 main_v38

/-- Up to the classifier's entry the second layer's output is what its region left. -/
theorem v38_at15_exit : W15 (F := Ideal) m ρ c (Proc.devRef .tc main_v38) = W11 (F := Ideal) m ρ c (Proc.devRef .tc main_v38) :=
  (v38_at15 m ρ c).trans ((v38_at14 m ρ c).trans ((v38_at13 m ρ c).trans (v38_at12 m ρ c)))

/-- Nothing after the second layer's activation region writes the first result's buffer. -/
theorem first_result_kept :
    W18 (F := Ideal) m ρ c (Proc.devRef .tc main_v38) = W11 (F := Ideal) m ρ c (Proc.devRef .tc main_v38) :=
  (v38_at18 m ρ c).trans ((v38_at17 m ρ c).trans ((v38_at16 m ρ c).trans (v38_at15_exit m ρ c)))

/-! ## From the classifier's entry stretch to the return nothing writes an argument's buffer -/

/-- The endpoint list of the pairs' sources is as launched when the gathers read it. -/
theorem arg3_at15 : W15 (F := Ideal) m ρ c (Proc.devRef .tc main_arg3) = m ((c : Thread nD τ).loc main_arg3) := by
  have h16 : W16 (F := Ideal) m ρ c (Proc.devRef .tc main_arg3) = W15 (F := Ideal) m ρ c (Proc.devRef .tc main_arg3) := by
    stretch_keeps hostOps4_4 main_arg3
  have h17 : W17 (F := Ideal) m ρ c (Proc.devRef .tc main_arg3) = W16 (F := Ideal) m ρ c (Proc.devRef .tc main_arg3) :=
    W17_of_ne m ρ c main_arg3 (by decide)
  have h18 : W18 (F := Ideal) m ρ c (Proc.devRef .tc main_arg3) = W17 (F := Ideal) m ρ c (Proc.devRef .tc main_arg3) := by
    stretch_keeps hostOps5 main_arg3
  exact (h16.symm.trans (h17.symm.trans h18.symm)).trans (W18_main_arg3 m ρ c)

/-- The endpoint list of the pairs' destinations likewise. -/
theorem arg4_at15 : W15 (F := Ideal) m ρ c (Proc.devRef .tc main_arg4) = m ((c : Thread nD τ).loc main_arg4) := by
  have h16 : W16 (F := Ideal) m ρ c (Proc.devRef .tc main_arg4) = W15 (F := Ideal) m ρ c (Proc.devRef .tc main_arg4) := by
    stretch_keeps hostOps4_4 main_arg4
  have h17 : W17 (F := Ideal) m ρ c (Proc.devRef .tc main_arg4) = W16 (F := Ideal) m ρ c (Proc.devRef .tc main_arg4) :=
    W17_of_ne m ρ c main_arg4 (by decide)
  have h18 : W18 (F := Ideal) m ρ c (Proc.devRef .tc main_arg4) = W17 (F := Ideal) m ρ c (Proc.devRef .tc main_arg4) := by
    stretch_keeps hostOps5 main_arg4
  exact (h16.symm.trans (h17.symm.trans h18.symm)).trans (W18_main_arg4 m ρ c)

/-- The classifier's bias is as launched when it is padded. -/
theorem arg10_at14 : W14 (F := Ideal) m ρ c (Proc.devRef .tc main_arg10) = m ((c : Thread nD τ).loc main_arg10) := by
  have h15 : W15 (F := Ideal) m ρ c (Proc.devRef .tc main_arg10) = W14 (F := Ideal) m ρ c (Proc.devRef .tc main_arg10) := by
    stretch_keeps hostOps4_3 main_arg10
  have h16 : W16 (F := Ideal) m ρ c (Proc.devRef .tc main_arg10) = W15 (F := Ideal) m ρ c (Proc.devRef .tc main_arg10) := by
    stretch_keeps hostOps4_4 main_arg10
  have h17 : W17 (F := Ideal) m ρ c (Proc.devRef .tc main_arg10) = W16 (F := Ideal) m ρ c (Proc.devRef .tc main_arg10) :=
    W17_of_ne m ρ c main_arg10 (by decide)
  have h18 : W18 (F := Ideal) m ρ c (Proc.devRef .tc main_arg10) = W17 (F := Ideal) m ρ c (Proc.devRef .tc main_arg10) := by
    stretch_keeps hostOps5 main_arg10
  exact (h15.symm.trans (h16.symm.trans (h17.symm.trans h18.symm))).trans (W18_main_arg10 m ρ c)

/-- The classifier's weights are as launched when they are padded. -/
theorem arg9_at12 : W12 (F := Ideal) m ρ c (Proc.devRef .tc main_arg9) = m ((c : Thread nD τ).loc main_arg9) := by
  have h13 : W13 (F := Ideal) m ρ c (Proc.devRef .tc main_arg9) = W12 (F := Ideal) m ρ c (Proc.devRef .tc main_arg9) := by
    stretch_keeps hostOps4_1 main_arg9
  have h14 : W14 (F := Ideal) m ρ c (Proc.devRef .tc main_arg9) = W13 (F := Ideal) m ρ c (Proc.devRef .tc main_arg9) := by
    stretch_keeps hostOps4_2 main_arg9
  have h15 : W15 (F := Ideal) m ρ c (Proc.devRef .tc main_arg9) = W14 (F := Ideal) m ρ c (Proc.devRef .tc main_arg9) := by
    stretch_keeps hostOps4_3 main_arg9
  have h16 : W16 (F := Ideal) m ρ c (Proc.devRef .tc main_arg9) = W15 (F := Ideal) m ρ c (Proc.devRef .tc main_arg9) := by
    stretch_keeps hostOps4_4 main_arg9
  have h17 : W17 (F := Ideal) m ρ c (Proc.devRef .tc main_arg9) = W16 (F := Ideal) m ρ c (Proc.devRef .tc main_arg9) :=
    W17_of_ne m ρ c main_arg9 (by decide)
  have h18 : W18 (F := Ideal) m ρ c (Proc.devRef .tc main_arg9) = W17 (F := Ideal) m ρ c (Proc.devRef .tc main_arg9) := by
    stretch_keeps hostOps5 main_arg9
  exact (h13.symm.trans (h14.symm.trans (h15.symm.trans (h16.symm.trans (h17.symm.trans h18.symm))))).trans
    (W18_main_arg9 m ρ c)

/-! ## What the host stretches before the classifier write, over any contents they start from -/

/-- The scalar both paddings fill with: the integer zero converted to a float. -/
def padZero : S_.Idx → EReal := sitofp (F := Ideal) .f32 (constantI S_ 32 0#32)

/-- The first padding's integer zero. -/
theorem c11_of (V : Valuation τ sig (Elt Ideal)) :
    StableHlo.after hostOps4 V (Proc.devRef .tc main_c_11) = constantI S_ 32 0#32 := by
  after_results

/-- The second padding's integer zero. -/
theorem c12_of (V : Valuation τ sig (Elt Ideal)) :
    StableHlo.after hostOps4_2 V (Proc.devRef .tc main_c_12) = constantI S_ 32 0#32 := by
  after_results

/-- The weights padded from 2 to 128 columns with the converted scalar. -/
theorem v39_of (V : Valuation τ sig (Elt Ideal)) :
    StableHlo.after hostOps4_1 V (Proc.devRef .tc main_v39)
      = pad (s := S256x2) (α := EReal) S256x128 ![0, 0] ![0, 126] ![0, 0] (V (Proc.devRef .tc main_arg9))
          (sitofp (F := Ideal) .f32 (V (Proc.devRef .tc main_c_11))) pads_S256x2_S256x128_000_01260 h_S_ := by
  after_results
  rfl

/-- The bias padded from 2 to 128 entries with the converted scalar. -/
theorem v40_of (V : Valuation τ sig (Elt Ideal)) :
    StableHlo.after hostOps4_3 V (Proc.devRef .tc main_v40)
      = pad (s := S2) (α := EReal) S128 ![0] ![126] ![0] (V (Proc.devRef .tc main_arg10))
          (sitofp (F := Ideal) .f32 (V (Proc.devRef .tc main_c_12))) pads_S2_S128_01260 h_S_ := by
  after_results
  rfl

/-- The first 128 rows of the padded weights. -/
theorem v41_of (V : Valuation τ sig (Elt Ideal)) :
    StableHlo.after hostOps4_4 V (Proc.devRef .tc main_v41)
      = extractStridedSlice (s := S256x128) (α := EReal) S128x128 ![0, 0] (V (Proc.devRef .tc main_v39))
          slices_S256x128_S128x128_0_0 := by
  after_results

/-- The last 128 rows of the padded weights. -/
theorem v42_of (V : Valuation τ sig (Elt Ideal)) :
    StableHlo.after hostOps4_4 V (Proc.devRef .tc main_v42)
      = extractStridedSlice (s := S256x128) (α := EReal) S128x128 ![128, 0] (V (Proc.devRef .tc main_v39))
          slices_S256x128_S128x128_128_0 := by
  after_results

/-- The gather at the pairs' sources is the endpoint chain of the source list and the second layer's output. -/
theorem v49_of (V : Valuation τ sig (Elt Ideal)) :
    StableHlo.after hostOps4_4 V (Proc.devRef .tc main_v49)
      = Chain.gat (V (Proc.devRef .tc main_arg3)) (V (Proc.devRef .tc main_v38)) := by
  after_results_simp
  unfold Chain.gat
  with_reducible rfl

/-- The gather at the pairs' destinations likewise. -/
theorem v56_of (V : Valuation τ sig (Elt Ideal)) :
    StableHlo.after hostOps4_4 V (Proc.devRef .tc main_v56)
      = Chain.gat (V (Proc.devRef .tc main_arg4)) (V (Proc.devRef .tc main_v38)) := by
  after_results_simp
  unfold Chain.gat
  with_reducible rfl

/-- The returned scores are the first two columns of the classifier's output. -/
theorem v58_of (V : Valuation τ sig (Elt Ideal)) :
    StableHlo.after hostOps5 V (Proc.devRef .tc main_v58)
      = extractStridedSlice (s := S200000x128) (α := EReal) S200000x2 ![0, 0] (V (Proc.devRef .tc main_v57))
          slices_S200000x128_S200000x2_0_0 := by
  after_results

/-! ## The classifier's five inputs at its entry, and its closed form's arguments -/

/-- The padded weights at the classifier's entry stretch: the launched weights padded with the converted zero. -/
theorem v39_at15 :
    W15 (F := Ideal) m ρ c (Proc.devRef .tc main_v39)
      = pad (s := S256x2) (α := EReal) S256x128 ![0, 0] ![0, 126] ![0, 0] (m ((c : Thread nD τ).loc main_arg9)) padZero
          pads_S256x2_S256x128_000_01260 h_S_ := by
  have h15 : W15 (F := Ideal) m ρ c (Proc.devRef .tc main_v39) = W14 (F := Ideal) m ρ c (Proc.devRef .tc main_v39) := by
    stretch_keeps hostOps4_3 main_v39
  have h14 : W14 (F := Ideal) m ρ c (Proc.devRef .tc main_v39) = W13 (F := Ideal) m ρ c (Proc.devRef .tc main_v39) := by
    stretch_keeps hostOps4_2 main_v39
  have hz : W12 (F := Ideal) m ρ c (Proc.devRef .tc main_c_11) = constantI S_ 32 0#32 := c11_of (W11 (F := Ideal) m ρ c)
  refine h15.trans (h14.trans ((v39_of (W12 (F := Ideal) m ρ c)).trans ?_))
  rw [arg9_at12 m ρ c, hz]
  rfl

/-- The padded bias at the classifier's entry: the launched bias padded with the same converted zero. -/
theorem v40_at16 :
    V16 (F := Ideal) m ρ c main_v40
      = pad (s := S2) (α := EReal) S128 ![0] ![126] ![0] (m ((c : Thread nD τ).loc main_arg10)) padZero
          pads_S2_S128_01260 h_S_ := by
  have h16 : W16 (F := Ideal) m ρ c (Proc.devRef .tc main_v40) = W15 (F := Ideal) m ρ c (Proc.devRef .tc main_v40) := by
    stretch_keeps hostOps4_4 main_v40
  have hz : W14 (F := Ideal) m ρ c (Proc.devRef .tc main_c_12) = constantI S_ 32 0#32 := c12_of (W13 (F := Ideal) m ρ c)
  refine h16.trans ((v40_of (W14 (F := Ideal) m ρ c)).trans ?_)
  rw [arg10_at14 m ρ c, hz]
  rfl

/-- The first half of the padded weights at the classifier's entry. -/
theorem v41_at16 :
    V16 (F := Ideal) m ρ c main_v41
      = extractStridedSlice (s := S256x128) (α := EReal) S128x128 ![0, 0]
          (pad (s := S256x2) (α := EReal) S256x128 ![0, 0] ![0, 126] ![0, 0] (m ((c : Thread nD τ).loc main_arg9)) padZero
            pads_S256x2_S256x128_000_01260 h_S_) slices_S256x128_S128x128_0_0 := by
  refine (v41_of (W15 (F := Ideal) m ρ c)).trans ?_
  rw [v39_at15 m ρ c]

/-- The second half of the padded weights at the classifier's entry. -/
theorem v42_at16 :
    V16 (F := Ideal) m ρ c main_v42
      = extractStridedSlice (s := S256x128) (α := EReal) S128x128 ![128, 0]
          (pad (s := S256x2) (α := EReal) S256x128 ![0, 0] ![0, 126] ![0, 0] (m ((c : Thread nD τ).loc main_arg9)) padZero
            pads_S256x2_S256x128_000_01260 h_S_) slices_S256x128_S128x128_128_0 := by
  refine (v42_of (W15 (F := Ideal) m ρ c)).trans ?_
  rw [v39_at15 m ρ c]

/-- The source endpoints' features at the classifier's entry. -/
theorem v49_at16 :
    V16 (F := Ideal) m ρ c main_v49
      = Chain.gat (m ((c : Thread nD τ).loc main_arg3)) (W11 (F := Ideal) m ρ c (Proc.devRef .tc main_v38)) := by
  refine (v49_of (W15 (F := Ideal) m ρ c)).trans ?_
  rw [arg3_at15 m ρ c, v38_at15_exit m ρ c]

/-- The destination endpoints' features at the classifier's entry. -/
theorem v56_at16 :
    V16 (F := Ideal) m ρ c main_v56
      = Chain.gat (m ((c : Thread nD τ).loc main_arg4)) (W11 (F := Ideal) m ρ c (Proc.devRef .tc main_v38)) := by
  refine (v56_of (W15 (F := Ideal) m ρ c)).trans ?_
  rw [arg4_at15 m ρ c, v38_at15_exit m ρ c]

/-- The second result: `Spec.score` of the second layer's output gathered at the two endpoint lists, the classifier's
    weights and its bias. -/
theorem second_result
    (R4 : ∀ (V : (c : Dev nD) → (b : Ref sig .tc) → Buf (Elt Ideal) ((c : Thread nD τ).loc b)) (c : Dev nD), (dat4 (F := Ideal) V c).arrAt 5 cfg4.N = Spec.scoreCols (V c main_v49) (V c main_v56) (V c main_v41) (V c main_v42) (V c main_v40))
    (T4 : ∀ (hs hd : S200000x128.Idx → EReal) (wc : S256x2.Idx → EReal) (bc : S2.Idx → EReal) (z : S_.Idx → EReal), extractStridedSlice S200000x2 ![0, 0] (Spec.scoreCols hs hd (extractStridedSlice S128x128 ![0, 0] (pad S256x128 ![0, 0] ![0, 126] ![0, 0] wc z pads_S256x2_S256x128_000_01260 h_S_) slices_S256x128_S128x128_0_0) (extractStridedSlice S128x128 ![128, 0] (pad S256x128 ![0, 0] ![0, 126] ![0, 0] wc z pads_S256x2_S256x128_000_01260 h_S_) slices_S256x128_S128x128_128_0) (pad S128 ![0] ![126] ![0] bc z pads_S2_S128_01260 h_S_)) slices_S200000x128_S200000x2_0_0 = Spec.score hs hd wc bc) :
    W18 (F := Ideal) m ρ c (Proc.devRef .tc main_v58)
      = Spec.score (Chain.gat (m ((c : Thread nD τ).loc main_arg3)) (W11 (F := Ideal) m ρ c (Proc.devRef .tc main_v38)))
          (Chain.gat (m ((c : Thread nD τ).loc main_arg4)) (W11 (F := Ideal) m ρ c (Proc.devRef .tc main_v38)))
          (m ((c : Thread nD τ).loc main_arg9)) (m ((c : Thread nD τ).loc main_arg10)) := by
  have e57 : W17 (F := Ideal) m ρ c (Proc.devRef .tc main_v57)
      = Spec.scoreCols
          (Chain.gat (m ((c : Thread nD τ).loc main_arg3)) (W11 (F := Ideal) m ρ c (Proc.devRef .tc main_v38)))
          (Chain.gat (m ((c : Thread nD τ).loc main_arg4)) (W11 (F := Ideal) m ρ c (Proc.devRef .tc main_v38)))
          (extractStridedSlice (s := S256x128) (α := EReal) S128x128 ![0, 0]
            (pad (s := S256x2) (α := EReal) S256x128 ![0, 0] ![0, 126] ![0, 0] (m ((c : Thread nD τ).loc main_arg9)) padZero
              pads_S256x2_S256x128_000_01260 h_S_) slices_S256x128_S128x128_0_0)
          (extractStridedSlice (s := S256x128) (α := EReal) S128x128 ![128, 0]
            (pad (s := S256x2) (α := EReal) S256x128 ![0, 0] ![0, 126] ![0, 0] (m ((c : Thread nD τ).loc main_arg9)) padZero
              pads_S256x2_S256x128_000_01260 h_S_) slices_S256x128_S128x128_128_0)
          (pad (s := S2) (α := EReal) S128 ![0] ![126] ![0] (m ((c : Thread nD τ).loc main_arg10)) padZero
            pads_S2_S128_01260 h_S_) := by
    refine (W17_arr m ρ c 5).trans ((R4 (V16 (F := Ideal) m ρ) c).trans ?_)
    rw [v49_at16 m ρ c, v56_at16 m ρ c, v41_at16 m ρ c, v42_at16 m ρ c, v40_at16 m ρ c]
  refine (v58_of (W17 (F := Ideal) m ρ c)).trans ?_
  rw [e57]
  exact T4 _ _ _ _ _

end Cert.KernelIdeal.FoldTail

end
-- ==== Proof.RegionProj.lean ====
/- The two projection regions (the first dense stage of each layer): what their output arrays hold once every grid point has written its block back. -/
import proofs.«171592_j34720515620910_1_alg».proof.Proof.Gen.KernelIdeal.Frame
import proofs.«171592_j34720515620910_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionProj

open Idealize.ShloMosaic Idealize.ShloMosaic.TcCoe Idealize.ShloMosaic.ValueIdx Idealize.SL.Sem
open Cert.KernelIdeal Cert.KernelIdeal.Gen
open scoped BigOperators

/-! ## The body's arithmetic at one element

Both projection bodies compute, for row `r` and feature `j` of a [5000, 128] block, the contraction of row `r` of the
feature block with column `j` of the weight matrix, times the entry of the [5000, 1] scale column in row `r`. On the
extended reals the two roundings to the narrower float format are the identity and the accumulator the product is added
into is the zero word, so nothing but that sum and that product is left. -/

/-- The two zero offsets of a whole-block access, as the constant function. -/
theorem zero_offsets : (![0, 0] : Fin 2 → Nat) = fun _ => 0 := funext fun a => by fin_cases a <;> rfl

/-- Axis 0 of the left operand's index is the output row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contracted coordinate. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand's index is the contracted coordinate. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand's index is the output column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `r` and column `j`: the sum over the 128 contracted features. -/
theorem matmul_zero_apply (x : FVec Ideal S5000x128 .bf16) (w : FVec Ideal S128x128 .bf16) (r : Fin 5000) (j : Fin 128) :
    matmul dot_S5000x128_S128x128_S5000x128_1_0_0_1_n_n none x w (constant (F := Ideal) S5000x128 .f32 0x00000000#32) (ix2 r j)
      = ∑ k : Fin 128, x (ix2 r k) * w (ix2 k j) := by
  refine (Ideal.matmul_constant_zero_apply dot_S5000x128_S128x128_S5000x128_1_0_0_1_n_n none x w (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-- A [5000, 1] column spread along the 128 features reads, in row `r`, the column's entry of row `r`. -/
theorem spread_col_apply (s : S5000x1.Idx → EReal) (r : Fin 5000) (j : Fin 128) :
    broadcastTo S5000x128 s broadcasts_S5000x1_S5000x128 (ix2 r j) = s (ix2 r 0) :=
  broadcastTo_apply s broadcasts_S5000x1_S5000x128 (ix2 r j) (ix2 r 0) fun a => by
    match a with
    | ⟨0, _⟩ => rfl
    | ⟨1, _⟩ => rfl

/-- The first layer's body at row `r`, column `j` of its block. -/
theorem pay0_apply (x : Vec Ideal S5000x128 .f32) (w : Vec Ideal S128x128 .f32) (s : Vec Ideal S5000x1 .f32) (r : Fin 5000) (j : Fin 128) :
    k0_pay1 (F := Ideal) x w s (ix2 r j) = (∑ k : Fin 128, x (ix2 r k) * w (ix2 k j)) * s (ix2 r 0) := by
  unfold k0_pay1
  refine (mulf_apply _ _ (ix2 r j)).trans ?_
  refine congrArg₂ (· * ·) ?_ ?_
  · exact matmul_zero_apply _ _ r j
  · refine (spread_col_apply _ r j).trans ?_
    rw [shapeCast_self]

/-- The second layer's body at row `r`, column `j` of its block: the same, its feature block first re-laid in its own shape. -/
theorem pay2_apply (x : Vec Ideal S5000x128 .f32) (w : Vec Ideal S128x128 .f32) (s : Vec Ideal S5000x1 .f32) (r : Fin 5000) (j : Fin 128) :
    k2_pay1 (F := Ideal) x w s (ix2 r j) = (∑ k : Fin 128, x (ix2 r k) * w (ix2 k j)) * s (ix2 r 0) := by
  unfold k2_pay1
  refine (mulf_apply _ _ (ix2 r j)).trans ?_
  refine congrArg₂ (· * ·) ?_ ?_
  · refine (matmul_zero_apply _ _ r j).trans ?_
    rw [shapeCast_self]
    rfl
  · refine (spread_col_apply _ r j).trans ?_
    rw [shapeCast_self]

/-- The bridge to the specification: if row `r` of the feature block is row `R` of the feature array, the weight block
    is the weight array and the scale block's entry of row `r` is node `R`'s factor, then the body's value at row `r`,
    column `j` is the projection at row `R`, column `j`. -/
theorem proj_of_block (x : Vec Ideal S5000x128 .f32) (w : Vec Ideal S128x128 .f32) (s : Vec Ideal S5000x1 .f32)
    (X : Spec.Feat.Idx → EReal) (W : Spec.Wt.Idx → EReal) (p : Spec.PerNode.Idx → EReal)
    (r : Fin 5000) (j : Fin 128) (R : Fin 50000)
    (hx : ∀ k : Fin 128, x (ix2 r k) = X (ix2 R k)) (hw : ∀ k : Fin 128, w (ix2 k j) = W (ix2 k j))
    (hs : s (ix2 r 0) = p (ix1 R)) :
    (∑ k : Fin 128, x (ix2 r k) * w (ix2 k j)) * s (ix2 r 0) = Spec.proj X W p (ix2 R j) := by
  show _ = (∑ k : Fin 128, X (ix2 R k) * W (ix2 k j)) * p (ix1 R)
  rw [hs]
  exact congrArg (· * p (ix1 R)) (Finset.sum_congr rfl fun k _ => by rw [hx k, hw k])

-- The TensorCore's buffer contents when the region is entered: every statement below holds at any such contents.
variable (V : (c : Dev nD) → (b : Ref sig .tc) → Buf (Elt Ideal) ((c : Thread nD τ).loc b))

/-! ## The first layer's projection region

Grid point `t` of the ten stages rows `5000 t … 5000 t + 4999` of the feature array and of the scale column, and the whole
weight matrix, and writes the same rows of the output array back. -/

/-- The printed block-index maps at every grid point: the row-blocked windows sit at block `(t, 0)`, the weight matrix at `(0, 0)`. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of the feature block at point `t` is row `5000 t + r` of the feature array. -/
theorem feat_block0 (c : Dev nD) (t : Fin cfg0.N) (r : Fin 5000) (k : Fin 128) (R : Fin 50000) (hR : R.val = 5000 * t.val + r.val) :
    (iblk0 V c 0 t : Vec Ideal S5000x128 .f32) (ix2 r k) = (V c main_arg0 : S50000x128.Idx → EReal) (ix2 R k) := by
  obtain ⟨e0, e1, -⟩ := block_index0 t
  show V c main_arg0 (((cfg0.win 0).blk t).view.emb (ix2 r k)) = _
  refine congrArg (V c main_arg0) (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

/-- The weight block at every point is the weight array. -/
theorem weight_block0 (c : Dev nD) (t : Fin cfg0.N) (k j : Fin 128) :
    (iblk0 V c 1 t : Vec Ideal S128x128 .f32) (ix2 k j) = (V c main_arg5 : S128x128.Idx → EReal) (ix2 k j) := by
  obtain ⟨-, -, e0, e1, -⟩ := block_index0 t
  show V c main_arg5 (((cfg0.win 1).blk t).view.emb (ix2 k j)) = _
  refine congrArg (V c main_arg5) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- Row `r` of the scale block at point `t` is row `5000 t + r` of the scale column. -/
theorem scale_block0 (c : Dev nD) (t : Fin cfg0.N) (r : Fin 5000) (R : Fin 50000) (hR : R.val = 5000 * t.val + r.val) :
    (iblk0 V c 2 t : Vec Ideal S5000x1 .f32) (ix2 r 0) = (V c main_v11 : S50000x1.Idx → EReal) (ix2 R 0) := by
  obtain ⟨-, -, -, -, e0, e1, -⟩ := block_index0 t
  show V c main_v11 (((cfg0.win 2).blk t).view.emb (ix2 r 0)) = _
  refine congrArg (V c main_v11) (funext fun a => Fin.ext ?_)
  match a with
  | ⟨0, _⟩ => show win0_2.index t (0 : Fin 2) * 5000 + 1 * r.val = R.val; omega
  | ⟨1, _⟩ => show win0_2.index t (1 : Fin 2) * 1 + 1 * 0 = 0; omega

/-- What point `t` writes back is block `t` of the projection of the arrays as the region finds them. -/
theorem flushed0 (c : Dev nD) (p : Spec.PerNode.Idx → EReal)
    (hp : ∀ r : Fin 50000, (V c main_v11 : S50000x1.Idx → EReal) (ix2 r 0) = p (ix1 r)) (t : Fin cfg0.N) :
    (dat0 (F := Ideal) V c).flushed 3 t
      = ((cfg0.win 3).blk t).view.read (Elt Ideal) (Spec.proj (V c main_arg0) (V c main_arg5) p) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  have ht : t.val < 10 := lt_of_lt_of_eq t.isLt N_0
  obtain ⟨-, -, -, -, -, -, e0, e1⟩ := block_index0 t
  funext y
  obtain ⟨r, j, rfl⟩ : ∃ (r : Fin 5000) (j : Fin 128), y = ix2 r j := ⟨y 0, y 1, eq_ix2 (n0 := 5000) (n1 := 128) y⟩
  obtain ⟨R, hR⟩ : ∃ R : Fin 50000, R.val = 5000 * t.val + r.val := ⟨⟨5000 * t.val + r.val, by omega⟩, rfl⟩
  have hemb : ((cfg0.win 3).blk t).view.emb (ix2 r j) = (ix2 R j : S50000x128.Idx) := by
    funext a; apply Fin.ext
    match a with
    | ⟨0, _⟩ => show win0_3.index t (0 : Fin 2) * 5000 + 1 * r.val = R.val; omega
    | ⟨1, _⟩ => show win0_3.index t (1 : Fin 2) * 128 + 1 * j.val = j.val; omega
  show k0_pay1 (F := Ideal) (iblk0 V c 0 t) (iblk0 V c 1 t) (iblk0 V c 2 t) (ix2 r j)
    = Spec.proj (V c main_arg0) (V c main_arg5) p (((cfg0.win 3).blk t).view.emb (ix2 r j))
  rw [hemb]
  refine (pay0_apply (iblk0 V c 0 t) (iblk0 V c 1 t) (iblk0 V c 2 t) r j).trans ?_
  exact proj_of_block (iblk0 V c 0 t) (iblk0 V c 1 t) (iblk0 V c 2 t) (V c main_arg0) (V c main_arg5) p r j R
    (fun k => feat_block0 V c t r k R hR) (fun k => weight_block0 V c t k j) ((scale_block0 V c t r R hR).trans (hp R))

/-- An index of the output array lies in point `t`'s block iff each coordinate lies in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- Row `R` of the output array is in the block of point `R / 5000`: the ten blocks cover the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, e0, e1⟩ := block_index0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the first layer's projection region its output array is `Spec.proj` of the feature array, the weight array and
    the per-node factor `p` that the region's [50000, 1] scale array spells as a column. -/
theorem arr0 (c : Dev nD) (p : Spec.PerNode.Idx → EReal)
    (hp : ∀ r : Fin 50000, (V c main_v11 : S50000x1.Idx → EReal) (ix2 r 0) = p (ix1 r)) :
    (dat0 (F := Ideal) V c).arrAt 3 cfg0.N = Spec.proj (V c main_arg0) (V c main_arg5) p :=
  (dat0 (F := Ideal) V c).arrAt_eq_of_cover 3 (Spec.proj (V c main_arg0) (V c main_arg5) p)
    (fun t _ => flushed0 V c p hp t) cover0

/-! ## The second layer's projection region

The same schedule over the first layer's output: point `t` stages rows `5000 t … 5000 t + 4999` of that array and of the
scale column, and the second weight matrix whole, and writes the same rows of its output array back. -/

/-- The printed block-index maps at every grid point: the row-blocked windows sit at block `(t, 0)`, the weight matrix at `(0, 0)`. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `r` of the feature block at point `t` is row `5000 t + r` of the first layer's output array. -/
theorem feat_block2 (c : Dev nD) (t : Fin cfg2.N) (r : Fin 5000) (k : Fin 128) (R : Fin 50000) (hR : R.val = 5000 * t.val + r.val) :
    (iblk2 V c 0 t : Vec Ideal S5000x128 .f32) (ix2 r k) = (V c main_v26 : S50000x128.Idx → EReal) (ix2 R k) := by
  obtain ⟨e0, e1, -⟩ := block_index2 t
  show V c main_v26 (((cfg2.win 0).blk t).view.emb (ix2 r k)) = _
  refine congrArg (V c main_v26) (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

/-- The weight block at every point is the second weight array. -/
theorem weight_block2 (c : Dev nD) (t : Fin cfg2.N) (k j : Fin 128) :
    (iblk2 V c 1 t : Vec Ideal S128x128 .f32) (ix2 k j) = (V c main_arg7 : S128x128.Idx → EReal) (ix2 k j) := by
  obtain ⟨-, -, e0, e1, -⟩ := block_index2 t
  show V c main_arg7 (((cfg2.win 1).blk t).view.emb (ix2 k j)) = _
  refine congrArg (V c main_arg7) (funext fun a => Fin.ext ?_)
  match a with
  | ⟨0, _⟩ => show win2_1.index t (0 : Fin 2) * 128 + 1 * k.val = k.val; omega
  | ⟨1, _⟩ => show win2_1.index t (1 : Fin 2) * 128 + 1 * j.val = j.val; omega

/-- Row `r` of the scale block at point `t` is row `5000 t + r` of the scale column. -/
theorem scale_block2 (c : Dev nD) (t : Fin cfg2.N) (r : Fin 5000) (R : Fin 50000) (hR : R.val = 5000 * t.val + r.val) :
    (iblk2 V c 2 t : Vec Ideal S5000x1 .f32) (ix2 r 0) = (V c main_v11 : S50000x1.Idx → EReal) (ix2 R 0) := by
  obtain ⟨-, -, -, -, e0, e1, -⟩ := block_index2 t
  show V c main_v11 (((cfg2.win 2).blk t).view.emb (ix2 r 0)) = _
  refine congrArg (V c main_v11) (funext fun a => Fin.ext ?_)
  match a with
  | ⟨0, _⟩ => show win2_2.index t (0 : Fin 2) * 5000 + 1 * r.val = R.val; omega
  | ⟨1, _⟩ => show win2_2.index t (1 : Fin 2) * 1 + 1 * 0 = 0; omega

/-- What point `t` writes back is block `t` of the projection of the arrays as the region finds them. -/
theorem flushed2 (c : Dev nD) (p : Spec.PerNode.Idx → EReal)
    (hp : ∀ r : Fin 50000, (V c main_v11 : S50000x1.Idx → EReal) (ix2 r 0) = p (ix1 r)) (t : Fin cfg2.N) :
    (dat2 (F := Ideal) V c).flushed 3 t
      = ((cfg2.win 3).blk t).view.read (Elt Ideal) (Spec.proj (V c main_v26) (V c main_arg7) p) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S5000x1) zero_offsets]
  have ht : t.val < 10 := lt_of_lt_of_eq t.isLt N_2
  obtain ⟨-, -, -, -, -, -, e0, e1⟩ := block_index2 t
  funext y
  obtain ⟨r, j, rfl⟩ : ∃ (r : Fin 5000) (j : Fin 128), y = ix2 r j := ⟨y 0, y 1, eq_ix2 (n0 := 5000) (n1 := 128) y⟩
  obtain ⟨R, hR⟩ : ∃ R : Fin 50000, R.val = 5000 * t.val + r.val := ⟨⟨5000 * t.val + r.val, by omega⟩, rfl⟩
  have hemb : ((cfg2.win 3).blk t).view.emb (ix2 r j) = (ix2 R j : S50000x128.Idx) := by
    funext a; apply Fin.ext
    match a with
    | ⟨0, _⟩ => show win2_3.index t (0 : Fin 2) * 5000 + 1 * r.val = R.val; omega
    | ⟨1, _⟩ => show win2_3.index t (1 : Fin 2) * 128 + 1 * j.val = j.val; omega
  show k2_pay1 (F := Ideal) (iblk2 V c 0 t) (iblk2 V c 1 t) (iblk2 V c 2 t) (ix2 r j)
    = Spec.proj (V c main_v26) (V c main_arg7) p (((cfg2.win 3).blk t).view.emb (ix2 r j))
  rw [hemb]
  refine (pay2_apply (iblk2 V c 0 t) (iblk2 V c 1 t) (iblk2 V c 2 t) r j).trans ?_
  exact proj_of_block (iblk2 V c 0 t) (iblk2 V c 1 t) (iblk2 V c 2 t) (V c main_v26) (V c main_arg7) p r j R
    (fun k => feat_block2 V c t r k R hR) (fun k => weight_block2 V c t k j) ((scale_block2 V c t r R hR).trans (hp R))

/-- An index of the output array lies in point `t`'s block iff each coordinate lies in the block's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v27).slice (win2_3.rect t)).set ↔ _
  rw [View.set_slice_whole, Rect.mem_set_unit]
  exact Iff.rfl

/-- Row `R` of the output array is in the block of point `R / 5000`: the ten blocks cover the array. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, e0, e1⟩ := block_index2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The same for the second layer's projection region, over the first layer's output. -/
theorem arr2 (c : Dev nD) (p : Spec.PerNode.Idx → EReal)
    (hp : ∀ r : Fin 50000, (V c main_v11 : S50000x1.Idx → EReal) (ix2 r 0) = p (ix1 r)) :
    (dat2 (F := Ideal) V c).arrAt 3 cfg2.N = Spec.proj (V c main_v26) (V c main_arg7) p :=
  (dat2 (F := Ideal) V c).arrAt_eq_of_cover 3 (Spec.proj (V c main_v26) (V c main_arg7) p)
    (fun t _ => flushed2 V c p hp t) cover2

end Cert.KernelIdeal.RegionProj

end
-- ==== Proof.RegionAct.lean ====
/- The two activation regions (the second dense stage of each layer): what their output arrays hold once every grid point has written its block back. -/
import proofs.«171592_j34720515620910_1_alg».proof.Proof.Gen.KernelIdeal.Frame
import proofs.«171592_j34720515620910_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionAct

open Idealize.ShloMosaic Idealize.ShloMosaic.TcCoe Idealize.ShloMosaic.ValueIdx Idealize.SL.Sem
open Cert.KernelIdeal Cert.KernelIdeal.Gen
open scoped BigOperators

/-! ## The body's arithmetic at one entry

Both activation regions run the same body on a [5000, 128] block `x0` of the aggregated array, the matching [5000, 1]
block `x1` of the per-node scale column and the whole [128] bias `x2`: the column is spread along the rows' 128 entries,
the bias along the 5000 rows, and the result is `max (x0[r, j] · x1[r, 0] + x2[j]) 0`. -/

theorem zero2 : (![0, 0] : Fin 2 → Nat) = fun _ => 0 := funext fun a => by fin_cases a <;> rfl
theorem zero1 : (![0] : Fin 1 → Nat) = fun _ => 0 := funext fun a => by fin_cases a; rfl

/-- A column `[a, 1]` broadcast to `[a, b]` reads, at `(r, j)`, the column's entry of row `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The first layer's activation body at entry `(r, j)` of its block: `max (x0[r, j] · x1[r, 0] + x2[j]) 0`. The two
    same-shape casts are the identity, the column is read at its row, the bias (a vector viewed as one row, then spread over
    the rows) at its feature, and the clamp's constant is the zero word at every entry. -/
theorem pay1_apply (x0 : Vec Ideal S5000x128 .f32) (x1 : Vec Ideal S5000x1 .f32) (x2 : Vec Ideal S128 .f32)
    (r : Fin 5000) (j : Fin 128) :
    k1_pay1 (F := Ideal) x0 x1 x2 (ix2 r j)
      = max (x0 (ix2 r j) * x1 (ix2 r (0 : Fin 1)) + x2 (ix1 j)) (Ideal.ofBits .f32 0x00000000#32) := by
  unfold k1_pay1
  rw [maximumf_apply, addf_apply, mulf_apply, broadcast_apply]
  rw [shapeCast_self, shapeCast_self]
  rw [broadcastTo_a1_ab_apply, broadcastTo_1b_ab_apply, shapeCast_a_1a_apply]
  rfl

/-- The second layer's activation body is the same function of its three blocks. -/
theorem pay3_eq (x0 : Vec Ideal S5000x128 .f32) (x1 : Vec Ideal S5000x1 .f32) (x2 : Vec Ideal S128 .f32) :
    k3_pay1 (F := Ideal) x0 x1 x2 = k1_pay1 (F := Ideal) x0 x1 x2 := rfl

/-- So the body's result at entry `(r, j)` of a block is `Spec.act a p b` at entry `(n, j)` of the whole arrays, as soon
    as the block of `a` at `(r, j)` is `a[n, j]`, the scale column's block at row `r` is `p[n]`, and the bias block is `b`. -/
theorem act_block (x0 : Vec Ideal S5000x128 .f32) (x1 : Vec Ideal S5000x1 .f32) (x2 : Vec Ideal S128 .f32)
    (a : Spec.Feat.Idx → EReal) (p : Spec.PerNode.Idx → EReal) (b : Spec.PerFeat.Idx → EReal)
    (r : Fin 5000) (j : Fin 128) (n : Fin 50000)
    (h0 : x0 (ix2 r j) = a (ix2 n j)) (h1 : x1 (ix2 r (0 : Fin 1)) = p (ix1 n)) (h2 : x2 (ix1 j) = b (ix1 j)) :
    k1_pay1 (F := Ideal) x0 x1 x2 (ix2 r j) = Spec.act a p b (ix2 n j) := by
  rw [pay1_apply, h0, h1, h2]
  rfl

/-- The same for the second layer's body. -/
theorem act_block3 (x0 : Vec Ideal S5000x128 .f32) (x1 : Vec Ideal S5000x1 .f32) (x2 : Vec Ideal S128 .f32)
    (a : Spec.Feat.Idx → EReal) (p : Spec.PerNode.Idx → EReal) (b : Spec.PerFeat.Idx → EReal)
    (r : Fin 5000) (j : Fin 128) (n : Fin 50000)
    (h0 : x0 (ix2 r j) = a (ix2 n j)) (h1 : x1 (ix2 r (0 : Fin 1)) = p (ix1 n)) (h2 : x2 (ix1 j) = b (ix1 j)) :
    k3_pay1 (F := Ideal) x0 x1 x2 (ix2 r j) = Spec.act a p b (ix2 n j) :=
  (congrFun (pay3_eq x0 x1 x2) (ix2 r j)).trans (act_block x0 x1 x2 a p b r j n h0 h1 h2)

-- The TensorCore's buffer contents when the region is entered: every statement below holds at any such contents.
variable (V : (c : Dev nD) → (b : Ref sig .tc) → Buf (Elt Ideal) ((c : Thread nD τ).loc b))

/-! ## The first layer's activation region

Ten grid points; point `t` stages rows `5000·t … 5000·t + 4999` of the aggregated array and of the scale column, the whole
bias, and writes the same rows of the output array back. -/

/-- The block indices at point `t`: row block `t`, column block `0`, for the aggregated array, the scale column and the
    output; block `0` for the bias (decided over the ten points). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry `(r, j)` of the aggregated array's block at point `t` is the array's entry `(5000·t + r, j)`. -/
theorem iblk1_0_apply (c : Dev nD) (t : Fin cfg1.N) (r : Fin 5000) (j : Fin 128) (n : Fin 50000)
    (hn : n.val = t.val * 5000 + r.val) :
    (iblk1 V c 0 t : Vec Ideal S5000x128 .f32) (ix2 r j) = (V c main_v25 : S50000x128.Idx → EReal) (ix2 n j) := by
  obtain ⟨e0, e1, -⟩ := idx1 t
  unfold iblk1
  rw [View.read_apply]
  show V c main_v25 _ = V c main_v25 _
  congr 1
  funext a
  apply Fin.ext
  match a with
  | ⟨0, _⟩ => show win1_0.index t (0 : Fin 2) * 5000 + 1 * r.val = n.val; rw [e0, hn]; omega
  | ⟨1, _⟩ => show win1_0.index t (1 : Fin 2) * 128 + 1 * j.val = j.val; rw [e1]; omega

/-- Row `r` of the scale column's block at point `t` is the column's row `5000·t + r`. -/
theorem iblk1_1_apply (c : Dev nD) (t : Fin cfg1.N) (r : Fin 5000) (n : Fin 50000)
    (hn : n.val = t.val * 5000 + r.val) :
    (iblk1 V c 1 t : Vec Ideal S5000x1 .f32) (ix2 r (0 : Fin 1)) = (V c main_v14 : S50000x1.Idx → EReal) (ix2 n (0 : Fin 1)) := by
  obtain ⟨-, -, e0, e1, -⟩ := idx1 t
  unfold iblk1
  rw [View.read_apply]
  show V c main_v14 _ = V c main_v14 _
  congr 1
  funext a
  apply Fin.ext
  match a with
  | ⟨0, _⟩ => show win1_1.index t (0 : Fin 2) * 5000 + 1 * r.val = n.val; rw [e0, hn]; omega
  | ⟨1, _⟩ => show win1_1.index t (1 : Fin 2) * 1 + 1 * 0 = 0; rw [e1]

/-- The bias block at every point is the bias. -/
theorem iblk1_2_apply (c : Dev nD) (t : Fin cfg1.N) (j : Fin 128) :
    (iblk1 V c 2 t : Vec Ideal S128 .f32) (ix1 j) = (V c main_arg6 : S128.Idx → EReal) (ix1 j) := by
  obtain ⟨-, -, -, -, e0, -⟩ := idx1 t
  unfold iblk1
  rw [View.read_apply]
  show V c main_arg6 _ = V c main_arg6 _
  congr 1
  funext a
  apply Fin.ext
  match a with
  | ⟨0, _⟩ => show win1_2.index t (0 : Fin 1) * 128 + 1 * j.val = j.val; rw [e0]; omega

/-- What point `t` writes back is block `t` of `Spec.act` of the three arrays: the body's one store covers its staging
    buffer, its loads read the whole input blocks, and entry `(r, j)` of the block sits at `(5000·t + r, j)` of each array. -/
theorem flushed1 (c : Dev nD) (p : Spec.PerNode.Idx → EReal)
    (hp : ∀ r : Fin 50000, (V c main_v14 : S50000x1.Idx → EReal) (ix2 r 0) = p (ix1 r)) (t : Fin cfg1.N) :
    (dat1 (F := Ideal) V c).flushed 3 t
      = ((cfg1.win 3).blk t).view.read (Elt Ideal) (Spec.act (V c main_v25) p (V c main_arg6)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S5000x1) zero2, View.ld_unit_zero (S := S128) zero1]
  funext y
  have hN : t.val < 10 := Nat.lt_of_lt_of_eq t.isLt N_1
  have hr : (y 0).val < 5000 := (y 0).isLt
  have hj : (y 1).val < 128 := (y 1).isLt
  obtain ⟨-, -, -, -, -, e0, e1⟩ := idx1 t
  have ey : (win1 3).xinj (grid1.coords t) y = ix2 (⟨(y 0).val, hr⟩ : Fin 5000) (⟨(y 1).val, hj⟩ : Fin 128) :=
    funext fun a => Fin.ext (by match a with | ⟨0, _⟩ => rfl | ⟨1, _⟩ => rfl)
  have ei : ((View.whole main_v26).slice ((win1 3).rect t)).emb y
      = ix2 (⟨t.val * 5000 + (y 0).val, by omega⟩ : Fin 50000) (⟨(y 1).val, hj⟩ : Fin 128) :=
    funext fun a => Fin.ext (by
      match a with
      | ⟨0, _⟩ => show win1_3.index t (0 : Fin 2) * 5000 + 1 * (y 0).val = t.val * 5000 + (y 0).val; rw [e0]; omega
      | ⟨1, _⟩ => show win1_3.index t (1 : Fin 2) * 128 + 1 * (y 1).val = (y 1).val; rw [e1]; omega)
  show k1_pay1 (F := Ideal) (iblk1 V c 0 t) (iblk1 V c 1 t) (iblk1 V c 2 t) ((win1 3).xinj (grid1.coords t) y)
    = Spec.act (V c main_v25) p (V c main_arg6) (((View.whole main_v26).slice ((win1 3).rect t)).emb y)
  rw [ey, ei]
  exact act_block (iblk1 V c 0 t) (iblk1 V c 1 t) (iblk1 V c 2 t) (V c main_v25) p (V c main_arg6) _ _ _
    (iblk1_0_apply V c t _ _ _ rfl) ((iblk1_1_apply V c t _ _ rfl).trans (hp _)) (iblk1_2_apply V c t _)

/-- An entry of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v26).slice (win1_3.rect t)).set ↔ _
  rw [View.set_slice_whole, Rect.mem_set_unit]
  exact Iff.rfl

/-- The ten blocks cover the output array: row `r` lies in the block of point `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, e0, e1⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- After the first layer's activation region its output array is `Spec.act` of the aggregated array, the per-node factor
    `p` that the region's [50000, 1] scale array spells as a column, and the bias. -/
theorem arr1 (c : Dev nD) (p : Spec.PerNode.Idx → EReal)
    (hp : ∀ r : Fin 50000, (V c main_v14 : S50000x1.Idx → EReal) (ix2 r 0) = p (ix1 r)) :
    (dat1 (F := Ideal) V c).arrAt 3 cfg1.N = Spec.act (V c main_v25) p (V c main_arg6) :=
  (dat1 (F := Ideal) V c).arrAt_eq_of_cover 3 (Spec.act (V c main_v25) p (V c main_arg6))
    (fun t _ => flushed1 V c p hp t) cover1

/-! ## The second layer's activation region

The same grid and the same block maps over the second layer's aggregated array, the same scale column, and the second
layer's bias. -/

/-- The block indices at point `t`, as in the first layer's region (decided over the ten points). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Entry `(r, j)` of the aggregated array's block at point `t` is the array's entry `(5000·t + r, j)`. -/
theorem iblk3_0_apply (c : Dev nD) (t : Fin cfg3.N) (r : Fin 5000) (j : Fin 128) (n : Fin 50000)
    (hn : n.val = t.val * 5000 + r.val) :
    (iblk3 V c 0 t : Vec Ideal S5000x128 .f32) (ix2 r j) = (V c main_v37 : S50000x128.Idx → EReal) (ix2 n j) := by
  obtain ⟨e0, e1, -⟩ := idx3 t
  unfold iblk3
  rw [View.read_apply]
  show V c main_v37 _ = V c main_v37 _
  congr 1
  funext a
  apply Fin.ext
  match a with
  | ⟨0, _⟩ => show win3_0.index t (0 : Fin 2) * 5000 + 1 * r.val = n.val; rw [e0, hn]; omega
  | ⟨1, _⟩ => show win3_0.index t (1 : Fin 2) * 128 + 1 * j.val = j.val; rw [e1]; omega

/-- Row `r` of the scale column's block at point `t` is the column's row `5000·t + r`. -/
theorem iblk3_1_apply (c : Dev nD) (t : Fin cfg3.N) (r : Fin 5000) (n : Fin 50000)
    (hn : n.val = t.val * 5000 + r.val) :
    (iblk3 V c 1 t : Vec Ideal S5000x1 .f32) (ix2 r (0 : Fin 1)) = (V c main_v14 : S50000x1.Idx → EReal) (ix2 n (0 : Fin 1)) := by
  obtain ⟨-, -, e0, e1, -⟩ := idx3 t
  unfold iblk3
  rw [View.read_apply]
  show V c main_v14 _ = V c main_v14 _
  congr 1
  funext a
  apply Fin.ext
  match a with
  | ⟨0, _⟩ => show win3_1.index t (0 : Fin 2) * 5000 + 1 * r.val = n.val; rw [e0, hn]; omega
  | ⟨1, _⟩ => show win3_1.index t (1 : Fin 2) * 1 + 1 * 0 = 0; rw [e1]

/-- The bias block at every point is the second layer's bias. -/
theorem iblk3_2_apply (c : Dev nD) (t : Fin cfg3.N) (j : Fin 128) :
    (iblk3 V c 2 t : Vec Ideal S128 .f32) (ix1 j) = (V c main_arg8 : S128.Idx → EReal) (ix1 j) := by
  obtain ⟨-, -, -, -, e0, -⟩ := idx3 t
  unfold iblk3
  rw [View.read_apply]
  show V c main_arg8 _ = V c main_arg8 _
  congr 1
  funext a
  apply Fin.ext
  match a with
  | ⟨0, _⟩ => show win3_2.index t (0 : Fin 1) * 128 + 1 * j.val = j.val; rw [e0]; omega

/-- What point `t` writes back is block `t` of `Spec.act` of the second layer's three arrays. -/
theorem flushed3 (c : Dev nD) (p : Spec.PerNode.Idx → EReal)
    (hp : ∀ r : Fin 50000, (V c main_v14 : S50000x1.Idx → EReal) (ix2 r 0) = p (ix1 r)) (t : Fin cfg3.N) :
    (dat3 (F := Ideal) V c).flushed 3 t
      = ((cfg3.win 3).blk t).view.read (Elt Ideal) (Spec.act (V c main_v37) p (V c main_arg8)) := by
  show (cfg3.win 3).cut (grid3.coords t) ((dat3 V c).after 3 t) = _
  rw [after3_3]
  unfold out3_3
  rw [View.canon_unit_zero zero2]
  simp only [View.ld_unit_zero (S := S5000x128) zero2, View.ld_unit_zero (S := S5000x1) zero2, View.ld_unit_zero (S := S128) zero1]
  funext y
  have hN : t.val < 10 := Nat.lt_of_lt_of_eq t.isLt N_3
  have hr : (y 0).val < 5000 := (y 0).isLt
  have hj : (y 1).val < 128 := (y 1).isLt
  obtain ⟨-, -, -, -, -, e0, e1⟩ := idx3 t
  have ey : (win3 3).xinj (grid3.coords t) y = ix2 (⟨(y 0).val, hr⟩ : Fin 5000) (⟨(y 1).val, hj⟩ : Fin 128) :=
    funext fun a => Fin.ext (by match a with | ⟨0, _⟩ => rfl | ⟨1, _⟩ => rfl)
  have ei : ((View.whole main_v38).slice ((win3 3).rect t)).emb y
      = ix2 (⟨t.val * 5000 + (y 0).val, by omega⟩ : Fin 50000) (⟨(y 1).val, hj⟩ : Fin 128) :=
    funext fun a => Fin.ext (by
      match a with
      | ⟨0, _⟩ => show win3_3.index t (0 : Fin 2) * 5000 + 1 * (y 0).val = t.val * 5000 + (y 0).val; rw [e0]; omega
      | ⟨1, _⟩ => show win3_3.index t (1 : Fin 2) * 128 + 1 * (y 1).val = (y 1).val; rw [e1]; omega)
  show k3_pay1 (F := Ideal) (iblk3 V c 0 t) (iblk3 V c 1 t) (iblk3 V c 2 t) ((win3 3).xinj (grid3.coords t) y)
    = Spec.act (V c main_v37) p (V c main_arg8) (((View.whole main_v38).slice ((win3 3).rect t)).emb y)
  rw [ey, ei]
  exact act_block3 (iblk3 V c 0 t) (iblk3 V c 1 t) (iblk3 V c 2 t) (V c main_v37) p (V c main_arg8) _ _ _
    (iblk3_0_apply V c t _ _ _ rfl) ((iblk3_1_apply V c t _ _ rfl).trans (hp _)) (iblk3_2_apply V c t _)

/-- An entry of the output array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v38).slice (win3_3.rect t)).set ↔ _
  rw [View.set_slice_whole, Rect.mem_set_unit]
  exact Iff.rfl

/-- The ten blocks cover the output array: row `r` lies in the block of point `r / 5000`. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 5000 < cfg3.N := by rw [show cfg3.N = 10 from N_3]; omega
  obtain ⟨-, -, -, -, -, e0, e1⟩ := idx3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- The same for the second layer's activation region. -/
theorem arr3 (c : Dev nD) (p : Spec.PerNode.Idx → EReal)
    (hp : ∀ r : Fin 50000, (V c main_v14 : S50000x1.Idx → EReal) (ix2 r 0) = p (ix1 r)) :
    (dat3 (F := Ideal) V c).arrAt 3 cfg3.N = Spec.act (V c main_v37) p (V c main_arg8) :=
  (dat3 (F := Ideal) V c).arrAt_eq_of_cover 3 (Spec.act (V c main_v37) p (V c main_arg8))
    (fun t _ => flushed3 V c p hp t) cover3

end Cert.KernelIdeal.RegionAct

end
-- ==== Proof.RegionPair.lean ====
/- The edge-pair classifier region: what its 128-column output array holds once every grid point has written its block back. -/
import proofs.«171592_j34720515620910_1_alg».proof.Proof.Gen.KernelIdeal.Frame
import proofs.«171592_j34720515620910_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionPair

open Idealize.ShloMosaic Idealize.ShloMosaic.TcCoe Idealize.ShloMosaic.ValueIdx Idealize.SL.Sem
open Cert.KernelIdeal Cert.KernelIdeal.Gen
open scoped BigOperators

/-! ## One product block at an index

The body multiplies a 5000-by-128 block of rows by a 128-by-128 weight array, contracting the block's columns against the
weights' rows. At the ideal values the element at row `r`, column `j` of such a product into a zero accumulator is
`∑ₖ x[r,k] · w[k,j]`. The four facts below say which coordinate of each operand's index is the output's and which is the
contraction index. -/

theorem prod_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem prod_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem prod_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem prod_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a weight array, into zero, at row `r` and column `j`: `∑ₖ x[r,k] · w[k,j]`. -/
theorem prod_at (x : FVec Ideal S5000x128 .bf16) (w : FVec Ideal S128x128 .bf16) (r : Fin 5000) (j : Fin 128) :
    matmul dot_S5000x128_S128x128_S5000x128_1_0_0_1_n_n none x w (constant (F := Ideal) S5000x128 .f32 0x00000000#32) (ix2 r j)
      = ∑ k : Fin 128, x (ix2 r k) * w (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact prod_lhs_row _ _
    | ⟨1, _⟩ => exact (prod_lhs_col _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (prod_rhs_row _ _).trans hk
    | ⟨1, _⟩ => exact prod_rhs_col _ _)
  rw [el, er]

/-! ## The body's stored value at an index -/

/-- The logistic function of a block, lane by lane. -/
theorem logistic_at {s : Shape} {φ : FTy} (a : FVec Ideal s φ) (i : s.Idx) : logistic a i = Ideal.logistic (a i) := rfl

/-- What the body stores at row `r`, column `j` of its output block, from the blocks it loaded: the logistic function of
    the two products' sum plus the bias at `j`. The changes of float format and the casts of a block to its own shape are
    the identity at the ideal values; the bias is read as one row and repeated down the block. -/
theorem pay_at (x0 x1 : Vec Ideal S5000x128 .f32) (x2 x3 : Vec Ideal S128x128 .f32) (x4 : Vec Ideal S128 .f32) (r : Fin 5000) (j : Fin 128) :
    k4_pay1 (F := Ideal) x0 x1 x2 x3 x4 (ix2 r j)
      = Ideal.logistic ((∑ k : Fin 128, x0 (ix2 r k) * x2 (ix2 k j) + ∑ k : Fin 128, x1 (ix2 r k) * x3 (ix2 k j)) + x4 (ix1 j)) := by
  unfold k4_pay1
  simp only [shapeCast_self]
  rw [logistic_at, addf_apply, addf_apply, prod_at, prod_at, broadcastTo_1b_ab_apply, shapeCast_a_1a_apply]
  rfl

-- The TensorCore's buffer contents when the region is entered: every statement below holds at any such contents.
variable (V : (c : Dev nD) → (b : Ref sig .tc) → Buf (Elt Ideal) ((c : Thread nD τ).loc b))

/-! ## Where each grid point reads and writes

Grid point `t` of the 40 works on rows `5000·t … 5000·t + 4999` of the two feature arrays and of the output array, and on
the whole of the two weight arrays and of the bias at every point. -/

theorem zeros2 : (![0, 0] : Fin 2 → Nat) = fun _ => 0 := funext fun a => by fin_cases a <;> rfl
theorem zeros1 : (![0] : Fin 1 → Nat) = fun _ => 0 := funext fun a => by fin_cases a <;> rfl

/-- The windows' index maps, decided over the grid: the row-block index of the two feature windows and of the output window
    is the point's number; every other block index is zero. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Row `r` of the block at point `t` is row `5000·t + r` of the array, which has 200000 rows. -/
theorem row_lt (t : Fin cfg4.N) (r : Fin 5000) : 5000 * t.val + r.val < 200000 := by
  have ht : t.val < 40 := t.isLt
  have hr := r.isLt
  omega

/-- The array row that row `r` of point `t`'s block is. -/
abbrev rowOf (t : Fin cfg4.N) (r : Fin 5000) : Fin 200000 := ⟨5000 * t.val + r.val, row_lt t r⟩

/-- The source endpoints' block at point `t` is rows `5000·t …` of their array. -/
theorem src_rows (c : Dev nD) (t : Fin cfg4.N) (r : Fin 5000) (k : Fin 128) :
    iblk4 V c 0 t (ix2 r k) = V c main_v49 (ix2 (rowOf t r) k) := by
  obtain ⟨e0, e1, -⟩ := index_facts t
  unfold iblk4
  rw [View.read_apply]
  show V c main_v49 _ = V c main_v49 _
  refine congrArg (V c main_v49) (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 128 + 1 * k.val = k.val; rw [e1]; omega

/-- The destination endpoints' block at point `t` is rows `5000·t …` of their array. -/
theorem dst_rows (c : Dev nD) (t : Fin cfg4.N) (r : Fin 5000) (k : Fin 128) :
    iblk4 V c 1 t (ix2 r k) = V c main_v56 (ix2 (rowOf t r) k) := by
  obtain ⟨-, -, e0, e1, -⟩ := index_facts t
  unfold iblk4
  rw [View.read_apply]
  show V c main_v56 _ = V c main_v56 _
  refine congrArg (V c main_v56) (funext fun a => Fin.ext ?_)
  match a with
  | ⟨0, _⟩ => show win4_1.index t (0 : Fin 2) * 5000 + 1 * r.val = 5000 * t.val + r.val; rw [e0]; omega
  | ⟨1, _⟩ => show win4_1.index t (1 : Fin 2) * 128 + 1 * k.val = k.val; rw [e1]; omega

/-- The first weight window's block is the whole array at every point. -/
theorem wts_src (c : Dev nD) (t : Fin cfg4.N) (k j : Fin 128) :
    iblk4 V c 2 t (ix2 k j) = V c main_v41 (ix2 k j) := by
  obtain ⟨-, -, -, -, e0, e1, -⟩ := index_facts t
  unfold iblk4
  rw [View.read_apply]
  show V c main_v41 _ = V c main_v41 _
  refine congrArg (V c main_v41) (funext fun a => Fin.ext ?_)
  match a with
  | ⟨0, _⟩ => show win4_2.index t (0 : Fin 2) * 128 + 1 * k.val = k.val; rw [e0]; omega
  | ⟨1, _⟩ => show win4_2.index t (1 : Fin 2) * 128 + 1 * j.val = j.val; rw [e1]; omega

/-- The second weight window's block is the whole array at every point. -/
theorem wts_dst (c : Dev nD) (t : Fin cfg4.N) (k j : Fin 128) :
    iblk4 V c 3 t (ix2 k j) = V c main_v42 (ix2 k j) := by
  obtain ⟨-, -, -, -, -, -, e0, e1, -⟩ := index_facts t
  unfold iblk4
  rw [View.read_apply]
  show V c main_v42 _ = V c main_v42 _
  refine congrArg (V c main_v42) (funext fun a => Fin.ext ?_)
  match a with
  | ⟨0, _⟩ => show win4_3.index t (0 : Fin 2) * 128 + 1 * k.val = k.val; rw [e0]; omega
  | ⟨1, _⟩ => show win4_3.index t (1 : Fin 2) * 128 + 1 * j.val = j.val; rw [e1]; omega

/-- The bias window's block is the whole bias at every point. -/
theorem bias_all (c : Dev nD) (t : Fin cfg4.N) (j : Fin 128) :
    iblk4 V c 4 t (ix1 j) = V c main_v40 (ix1 j) := by
  obtain ⟨-, -, -, -, -, -, -, -, e0, -⟩ := index_facts t
  unfold iblk4
  rw [View.read_apply]
  show V c main_v40 _ = V c main_v40 _
  refine congrArg (V c main_v40) (funext fun a => Fin.ext ?_)
  match a with
  | ⟨0, _⟩ => show win4_4.index t (0 : Fin 1) * 128 + 1 * j.val = j.val; rw [e0]; omega

/-- What the body stores at row `r`, column `j` at point `t` is the score column `j` of edge pair `5000·t + r`. -/
theorem stored_at (c : Dev nD) (t : Fin cfg4.N) (r : Fin 5000) (j : Fin 128) :
    k4_pay1 (F := Ideal) (iblk4 V c 0 t) (iblk4 V c 1 t) (iblk4 V c 2 t) (iblk4 V c 3 t) (iblk4 V c 4 t) (ix2 r j)
      = Spec.scoreCols (V c main_v49) (V c main_v56) (V c main_v41) (V c main_v42) (V c main_v40) (ix2 (rowOf t r) j) := by
  refine (pay_at (iblk4 V c 0 t) (iblk4 V c 1 t) (iblk4 V c 2 t) (iblk4 V c 3 t) (iblk4 V c 4 t) r j).trans ?_
  simp only [src_rows V c t, dst_rows V c t, wts_src V c t, wts_dst V c t, bias_all V c t]
  rfl

/-! ## From the blocks to the array -/

/-- What point `t` writes back is block `t` of the score columns: the body's one store covers its whole staging buffer,
    whose row `r` goes to row `5000·t + r` of the output array. -/
theorem flushed_eq (c : Dev nD) (t : Fin cfg4.N) :
    (dat4 (F := Ideal) V c).flushed 5 t
      = ((cfg4.win 5).blk t).view.read (Elt Ideal)
          (Spec.scoreCols (V c main_v49) (V c main_v56) (V c main_v41) (V c main_v42) (V c main_v40)) := by
  show (cfg4.win 5).cut (grid4.coords t) ((dat4 V c).after 5 t) = _
  rw [after4_5]
  unfold out4_5
  rw [View.canon_unit_zero zeros2]
  simp only [View.ld_unit_zero (S := S5000x128) zeros2, View.ld_unit_zero (S := S128x128) zeros2, View.ld_unit_zero (S := S128) zeros1]
  obtain ⟨-, -, -, -, -, -, -, -, -, e0, e1⟩ := index_facts t
  funext y
  obtain ⟨r, j, rfl⟩ : ∃ (r : Fin 5000) (j : Fin 128), y = ix2 r j := ⟨y 0, y 1, eq_ix2 y⟩
  show k4_pay1 (F := Ideal) (iblk4 V c 0 t) (iblk4 V c 1 t) (iblk4 V c 2 t) (iblk4 V c 3 t) (iblk4 V c 4 t) (ix2 r j)
    = Spec.scoreCols (V c main_v49) (V c main_v56) (V c main_v41) (V c main_v42) (V c main_v40) (((cfg4.win 5).blk t).view.emb (ix2 r j))
  refine (stored_at V c t r j).trans (congrArg (Spec.scoreCols (V c main_v49) (V c main_v56) (V c main_v41) (V c main_v42) (V c main_v40)) (funext fun a => Fin.ext ?_))
  match a with
  | ⟨0, _⟩ => show 5000 * t.val + r.val = win4_5.index t (0 : Fin 2) * 5000 + 1 * r.val; rw [e0]; omega
  | ⟨1, _⟩ => show j.val = win4_5.index t (1 : Fin 2) * 128 + 1 * j.val; rw [e1]; omega

/-- An index of the output array is in point `t`'s block iff each coordinate is in the block's range on its axis. -/
theorem mem_blk (t : Fin cfg4.N) (i : S200000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v57).slice (win4_5.rect t)).set ↔ _
  rw [View.set_slice_whole, Rect.mem_set_unit]
  exact Iff.rfl

/-- Every row of the output array is written: row `e` by point `e / 5000`. -/
theorem covered (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hN : cfg4.N = 40 := N_4
  obtain ⟨t, ht⟩ : ∃ t : Fin cfg4.N, t.val = (i 0).val / 5000 := ⟨⟨(i 0).val / 5000, by rw [hN]; omega⟩, rfl⟩
  obtain ⟨-, -, -, -, -, -, -, -, -, e0, e1⟩ := index_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; rw [e0]; omega
  | ⟨1, _⟩ => show win4_5.index t (1 : Fin 2) * 128 ≤ (i 1).val ∧ (i 1).val < win4_5.index t (1 : Fin 2) * 128 + 128; rw [e1]; omega

/-- After the classifier region its output array is `Spec.scoreCols` of the two gathered endpoint-feature arrays, the two
    128-by-128 weight arrays and the 128-long bias array. -/
theorem arr4 (c : Dev nD) :
    (dat4 (F := Ideal) V c).arrAt 5 cfg4.N = Spec.scoreCols (V c main_v49) (V c main_v56) (V c main_v41) (V c main_v42) (V c main_v40) :=
  (dat4 (F := Ideal) V c).arrAt_eq_of_cover 5
    (Spec.scoreCols (V c main_v49) (V c main_v56) (V c main_v41) (V c main_v42) (V c main_v40))
    (fun t _ => flushed_eq V c t) covered

end Cert.KernelIdeal.RegionPair

end
-- ==== Proof.Tail.lean ====
/- The classifier's last two layout steps on the kernel's side: the weights and the bias are padded with a constant to 128 columns and cut into two 128-row halves before the classifier region, and only the first two of the region's 128 output columns are kept after it. The two kept columns never meet the padding, so what is kept is the classifier over the unpadded weights and bias. -/
import proofs.«171592_j34720515620910_1_alg».proof.Proof.Gen.KernelIdeal.Frame
import proofs.«171592_j34720515620910_1_alg».proof.Proof.Spec
import proofs.«171592_j34720515620910_1_alg».proof.Proof.KChain
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen
open scoped BigOperators

/-- The weights padded to 128 columns, read at one of the two original columns, are the weights there. -/
theorem wpad_apply (wc : S256x2.Idx → EReal) (z : S_.Idx → EReal) (k : Fin 256) (j : Fin 2) :
    pad S256x128 ![0, 0] ![0, 126] ![0, 0] wc z pads_S256x2_S256x128_000_01260 h_S_ (ix2 k (⟨j.val, by omega⟩ : Fin 128))
      = wc (ix2 k j) :=
  pad_apply_of_inside _ _ _ wc z pads_S256x2_S256x128_000_01260 h_S_ _ (ix2 k j) (fun a => match a with
    | ⟨0, _⟩ => by show k.val = 0 + k.val * (0 + 1); omega
    | ⟨1, _⟩ => by show j.val = 0 + j.val * (0 + 1); omega)

/-- The upper half of the padded weights, at an original column, is rows `0 … 127` of the weights … -/
theorem upper_apply (wc : S256x2.Idx → EReal) (z : S_.Idx → EReal) (k : Fin 128) (j : Fin 2) :
    extractStridedSlice S128x128 ![0, 0] (pad S256x128 ![0, 0] ![0, 126] ![0, 0] wc z pads_S256x2_S256x128_000_01260 h_S_)
        slices_S256x128_S128x128_0_0 (ix2 k (⟨j.val, by omega⟩ : Fin 128))
      = wc (ix2 (⟨k.val, by omega⟩ : Fin 256) j) := by
  refine (extractStridedSlice_apply _ _ slices_S256x128_S128x128_0_0 _
    (ix2 (⟨k.val, by omega⟩ : Fin 256) (⟨j.val, by omega⟩ : Fin 128)) (fun a => match a with
      | ⟨0, _⟩ => by show k.val = 0 + k.val; omega
      | ⟨1, _⟩ => by show j.val = 0 + j.val; omega)).trans ?_
  exact wpad_apply wc z _ j

/-- … and the lower half rows `128 … 255`. -/
theorem lower_apply (wc : S256x2.Idx → EReal) (z : S_.Idx → EReal) (k : Fin 128) (j : Fin 2) :
    extractStridedSlice S128x128 ![128, 0] (pad S256x128 ![0, 0] ![0, 126] ![0, 0] wc z pads_S256x2_S256x128_000_01260 h_S_)
        slices_S256x128_S128x128_128_0 (ix2 k (⟨j.val, by omega⟩ : Fin 128))
      = wc (ix2 (⟨128 + k.val, by omega⟩ : Fin 256) j) := by
  refine (extractStridedSlice_apply _ _ slices_S256x128_S128x128_128_0 _
    (ix2 (⟨128 + k.val, by omega⟩ : Fin 256) (⟨j.val, by omega⟩ : Fin 128)) (fun a => match a with
      | ⟨0, _⟩ => by show 128 + k.val = 128 + k.val; rfl
      | ⟨1, _⟩ => by show j.val = 0 + j.val; omega)).trans ?_
  exact wpad_apply wc z _ j

/-- The padded bias at one of the two original entries is the bias there. -/
theorem bpad_apply (bc : S2.Idx → EReal) (z : S_.Idx → EReal) (j : Fin 2) :
    pad S128 ![0] ![126] ![0] bc z pads_S2_S128_01260 h_S_ (ix1 (⟨j.val, by omega⟩ : Fin 128)) = bc (ix1 j) :=
  pad_apply_of_inside _ _ _ bc z pads_S2_S128_01260 h_S_ _ (ix1 j) (fun a => match a with
    | ⟨0, _⟩ => by show j.val = 0 + j.val * (0 + 1); omega)

/-- Columns 0 and 1 of `Spec.scoreCols` over the padded-and-halved weights and the padded bias are `Spec.score` over the
    weights and bias themselves, whatever the padding value `z` is. -/
theorem keep_two (hs hd : S200000x128.Idx → EReal) (wc : S256x2.Idx → EReal) (bc : S2.Idx → EReal) (z : S_.Idx → EReal) :
    extractStridedSlice S200000x2 ![0, 0] (Spec.scoreCols hs hd
        (extractStridedSlice S128x128 ![0, 0] (pad S256x128 ![0, 0] ![0, 126] ![0, 0] wc z pads_S256x2_S256x128_000_01260 h_S_) slices_S256x128_S128x128_0_0)
        (extractStridedSlice S128x128 ![128, 0] (pad S256x128 ![0, 0] ![0, 126] ![0, 0] wc z pads_S256x2_S256x128_000_01260 h_S_) slices_S256x128_S128x128_128_0)
        (pad S128 ![0] ![126] ![0] bc z pads_S2_S128_01260 h_S_)) slices_S200000x128_S200000x2_0_0
      = Spec.score hs hd wc bc := by
  funext i
  obtain ⟨e, j, rfl⟩ : ∃ (e : Fin 200000) (j : Fin 2), i = ix2 e j := ⟨i 0, i 1, eq_ix2 i⟩
  -- the kept column `j` of the 128 computed ones
  refine (extractStridedSlice_apply _ _ slices_S200000x128_S200000x2_0_0 (ix2 e j)
    (ix2 e (⟨j.val, by omega⟩ : Fin 128)) (fun a => match a with
      | ⟨0, _⟩ => by show e.val = 0 + e.val; omega
      | ⟨1, _⟩ => by show j.val = 0 + j.val; omega)).trans ?_
  show Ideal.logistic ((∑ k : Fin 128, hs (ix2 e k)
        * extractStridedSlice S128x128 ![0, 0] (pad S256x128 ![0, 0] ![0, 126] ![0, 0] wc z pads_S256x2_S256x128_000_01260 h_S_)
            slices_S256x128_S128x128_0_0 (ix2 k (⟨j.val, by omega⟩ : Fin 128))
      + ∑ k : Fin 128, hd (ix2 e k)
        * extractStridedSlice S128x128 ![128, 0] (pad S256x128 ![0, 0] ![0, 126] ![0, 0] wc z pads_S256x2_S256x128_000_01260 h_S_)
            slices_S256x128_S128x128_128_0 (ix2 k (⟨j.val, by omega⟩ : Fin 128)))
      + pad S128 ![0] ![126] ![0] bc z pads_S2_S128_01260 h_S_ (ix1 (⟨j.val, by omega⟩ : Fin 128)))
    = Ideal.logistic ((∑ k : Fin 128, hs (ix2 e k) * wc (ix2 (⟨k.val, by omega⟩ : Fin 256) j)
      + ∑ k : Fin 128, hd (ix2 e k) * wc (ix2 (⟨128 + k.val, by omega⟩ : Fin 256) j)) + bc (ix1 j))
  rw [bpad_apply]
  simp only [upper_apply, lower_apply]

end Cert.KernelIdeal.Tail

end
-- ==== Proof.KernelValue.lean ====
/- The idealized kernel program's run with its two results named: every weakly fair execution terminates with the
   first result buffer at `Fold.hidden` — two graph-convolution layers, each a projection scaled by the out-degree
   factor, a gather at the edges' sources summed at their destinations, then the in-degree scaling, the bias and the
   clamp at zero — and the second at the logistic classifier `Spec.score` of that array gathered at the edge pairs' two
   endpoint lists. The run itself is the program's launch over its segments; the contents of the two result buffers
   are read back through the segment boundaries (`Fold.hidden_eq`, `FoldTail.first_result_kept`,
   `FoldTail.second_result`) with each region's output array as one function of its inputs (`RegionProj`, `RegionAct`,
   `RegionPair`) and the padded classifier columns cut back to two (`Tail.keep_two`). -/
import proofs.«171592_j34720515620910_1_alg».proof.Proof.KernelRun
import proofs.«171592_j34720515620910_1_alg».proof.Proof.FoldA
import proofs.«171592_j34720515620910_1_alg».proof.Proof.FoldB
import proofs.«171592_j34720515620910_1_alg».proof.Proof.RegionProj
import proofs.«171592_j34720515620910_1_alg».proof.Proof.RegionAct
import proofs.«171592_j34720515620910_1_alg».proof.Proof.RegionPair
import proofs.«171592_j34720515620910_1_alg».proof.Proof.Tail

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The first result buffer's final contents. -/
theorem first (c : Dev nD) : W18 (F := Ideal) m ρ c (Proc.devRef .tc main_v38) = Fold.hidden m c :=
  (FoldTail.first_result_kept m ρ c).trans
    (Fold.hidden_eq m ρ c RegionProj.arr0 RegionAct.arr1 RegionProj.arr2 RegionAct.arr3)

/-- The second result buffer's final contents. -/
theorem second (c : Dev nD) : W18 (F := Ideal) m ρ c (Proc.devRef .tc main_v58)
    = Spec.score (Chain.gat (m ((c : Thread nD τ).loc main_arg3)) (Fold.hidden m c))
        (Chain.gat (m ((c : Thread nD τ).loc main_arg4)) (Fold.hidden m c))
        (m ((c : Thread nD τ).loc main_arg9)) (m ((c : Thread nD τ).loc main_arg10)) := by
  rw [FoldTail.second_result m ρ c RegionPair.arr4 Tail.keep_two,
    Fold.hidden_eq m ρ c RegionProj.arr0 RegionAct.arr1 RegionProj.arr2 RegionAct.arr3]

/-- Every weakly fair execution of the program terminates, nothing faulting, with both results at their functions of
    the arguments and the arguments unchanged. -/
theorem run : θ_run defs (onTc (τ := τ) (main (F := Ideal))) ⟨m, fun _ => 0, ρ⟩ (fun r => ∀ c : Dev nD,
      r.2.mem ((c.tc : Thread nD τ).loc main_v38) = Fold.hidden m c
      ∧ r.2.mem ((c.tc : Thread nD τ).loc main_v58)
          = Spec.score (Chain.gat (m ((c : Thread nD τ).loc main_arg3)) (Fold.hidden m c))
              (Chain.gat (m ((c : Thread nD τ).loc main_arg4)) (Fold.hidden m c))
              (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (first m ρ c), (h c).2.1.trans (second m ρ c), (h c).2.2⟩)
    (run_fold (F := Ideal) m ρ)

end Cert.KernelIdeal.Result

end
-- ==== Proof.RChain.lean ====
/-
  The three stretches of host arithmetic the program applies around its dense layers, each named as one function
  so that no later step has to open it:
  `deg idx` — per node, the number of edges whose endpoint list `idx` names it (a scatter-add of ones into zeros),
  clamped below at one, raised to the power −1/2;
  `msg src dst h` — the rows of `h` gathered at each edge's source (a negative index wrapped by 50000 first) and
  summed into zeros at the edge's destination;
  `gat idx h` — the rows of `h` gathered at the edge pairs' endpoints `idx`, wrapped the same way.
-/
import proofs.«171592_j34720515620910_1_alg».proof.Proof.Gen.ReferenceIdeal
import Idealize.ShloMosaic.PureOps.Ideal

noncomputable section

namespace Cert.ReferenceIdeal.Chain

open Idealize.ShloMosaic Cert.ReferenceIdeal Cert.ReferenceIdeal.Gen

/-- The inverse square root of each node's clamped edge count. -/
def deg (idx : (⟨S800000, .i32⟩ : BufTy).Contents (Elt Ideal)) : (⟨S50000, .f32⟩ : BufTy).Contents (Elt Ideal) :=
  Host.powf (F := Ideal) (maximumf (broadcastInDim S50000 ![] bcast_S_S50000 (id (constant (F := Ideal) S_ .f32 0x3F800000#32)))
      (Host.scatterAdd (F := Ideal) scatter_S50000_S800000x1_S800000_n_0_0_1 (broadcastInDim S50000 ![] bcast_S_S50000 (constant (F := Ideal) S_ .f32 0x00000000#32))
        (broadcastInDim S800000x1 ![0] bcast_S800000_S800000x1_0 idx) (broadcastInDim S800000 ![] bcast_S_S800000 (constant (F := Ideal) S_ .f32 0x3F800000#32))))
    (broadcastInDim S50000 ![] bcast_S_S50000 (constant (F := Ideal) S_ .f32 0xBF000000#32))

/-- One round of message passing: gather at the sources, scatter-add at the destinations. -/
def msg (src dst : (⟨S800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1 (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The rows of `h` at the edge pairs' endpoints. -/
def gat (idx : (⟨S200000, .i32⟩ : BufTy).Contents (Elt Ideal)) (h : (⟨S50000x128, .f32⟩ : BufTy).Contents (Elt Ideal)) :
    (⟨S200000x128, .f32⟩ : BufTy).Contents (Elt Ideal) :=
  Host.gather gather_S50000x128_S200000x1_S200000x128_1_0_n_n_0_1_1128 h
    (broadcastInDim S200000x1 ![0] bcast_S200000_S200000x1_0
      (select (cmpi .slt idx (broadcastInDim S200000 ![] bcast_S_S200000 (constantI S_ 32 0#32)))
        (addi idx (broadcastInDim S200000 ![] bcast_S_S200000 (constantI S_ 32 50000#32))) idx))

end Cert.ReferenceIdeal.Chain

end
-- ==== Proof.RefSide.lean ====
/- The reference program's two results as functions of its arguments: its run's composed term read stage by stage, the
   dense stages index by index (a `dot_general` followed by a row scaling is `Spec.proj`; a row scaling, a bias and a
   clamp at zero are `Spec.act`), the gathers and scatter-adds along the edges kept whole as `Chain.msg`, `Chain.deg`
   and `Chain.gat`. -/
import proofs.«171592_j34720515620910_1_alg».proof.Proof.Gen.ReferenceIdeal.Read
import proofs.«171592_j34720515620910_1_alg».proof.Proof.Spec
import proofs.«171592_j34720515620910_1_alg».proof.Proof.RChain

set_option maxRecDepth 16384

noncomputable section

namespace Cert.RefSide

open Idealize.ShloMosaic Idealize.ShloMosaic.TcCoe Idealize.ShloMosaic.ValueIdx Idealize.SL.Sem
open Cert.ReferenceIdeal Cert.ReferenceIdeal.Gen
open scoped BigOperators

/-! ## The stages of the reference program over variables

Each lemma below is about one stage function of the reference program, stated over free arrays `x0 … x10` standing for
the program's arguments: node features `x0`, the edges' source and destination lists `x1`, `x2`, the edge pairs' two
endpoint lists `x3`, `x4`, the two layers' weights and biases `x5`, `x6`, `x7`, `x8`, the classifier's weights and bias
`x9`, `x10`. -/

section Stages

open Cert.ReferenceIdeal.Read

variable (x0 : (⟨S50000x128, .f32⟩ : BufTy).Contents (Elt Ideal))
variable (x1 x2 : (⟨S800000, .i32⟩ : BufTy).Contents (Elt Ideal))
variable (x3 x4 : (⟨S200000, .i32⟩ : BufTy).Contents (Elt Ideal))
variable (x5 : (⟨S128x128, .f32⟩ : BufTy).Contents (Elt Ideal))
variable (x6 : (⟨S128, .f32⟩ : BufTy).Contents (Elt Ideal))
variable (x7 : (⟨S128x128, .f32⟩ : BufTy).Contents (Elt Ideal))
variable (x8 : (⟨S128, .f32⟩ : BufTy).Contents (Elt Ideal))
variable (x9 : (⟨S256x2, .f32⟩ : BufTy).Contents (Elt Ideal))
variable (x10 : (⟨S2, .f32⟩ : BufTy).Contents (Elt Ideal))

/-! ### The degree factors

The program computes each of the two degree factors twice, once per layer; all four stages are, operation for
operation, the composition `Chain.deg` names: ones scatter-added into zeros along an endpoint list, the maximum with
one, the power −1/2. -/

/-- The first layer's source-side factor. -/
theorem deg_src₁ : val_main_v11 (F := Ideal) x1 = Chain.deg x1 := by
  unfold val_main_v11 val_main_v10 val_main_v4 val_main_v3 val_main_call0_v1 val_main_call0_v0 val_main_v2 val_main_v1
    val_main_v0 val_main_cst_4 val_main_cst_1 val_main_cst_0 val_main_cst Chain.deg
  rfl

/-- The first layer's destination-side factor. -/
theorem deg_dst₁ : val_main_v26 (F := Ideal) x2 = Chain.deg x2 := by
  unfold val_main_v26 val_main_v25 val_main_v8 val_main_v7 val_main_call1_v1 val_main_call1_v0 val_main_v6 val_main_v5
    val_main_v0 val_main_cst_7 val_main_cst_3 val_main_cst_2 val_main_cst Chain.deg
  rfl

/-- The second layer's source-side factor. -/
theorem deg_src₂ : val_main_v45 (F := Ideal) x1 = Chain.deg x1 := by
  unfold val_main_v45 val_main_v44 val_main_v38 val_main_v37 val_main_call3_v1 val_main_call3_v0 val_main_v36 val_main_v35
    val_main_v34 val_main_cst_13 val_main_cst_10 val_main_cst_9 val_main_cst_8 Chain.deg
  rfl

/-- The second layer's destination-side factor. -/
theorem deg_dst₂ : val_main_v60 (F := Ideal) x2 = Chain.deg x2 := by
  unfold val_main_v60 val_main_v59 val_main_v42 val_main_v41 val_main_call4_v1 val_main_call4_v0 val_main_v40 val_main_v39
    val_main_v34 val_main_cst_17 val_main_cst_12 val_main_cst_11 val_main_cst_8 Chain.deg
  rfl

/-! ### The first layer -/

/-- The contraction of the features with the first weight matrix, each row then multiplied by the source-side factor
    broadcast along the row: entry `(r, j)` is `(∑ₖ x0[r,k] · x5[k,j]) · p[r]`. -/
theorem proj₁ : val_main_v14 (F := Ideal) x0 x1 x5 = Spec.proj x0 x5 (val_main_v11 (F := Ideal) x1) := by
  funext i
  obtain ⟨r, j, rfl⟩ : ∃ (r : Fin 50000) (j : Fin 128), i = ix2 r j := ⟨i 0, i 1, eq_ix2 i⟩
  rw [val_main_v14_apply, val_main_v9_apply, val_main_v13_apply, val_main_v12_apply]
  have erow : idx_main_v12 (idx_main_v13 (ix2 r j)) = ix1 r :=
    funext fun a => Fin.ext (by match a with | ⟨0, _⟩ => rfl)
  have el : ∀ k : Fin 128, lidx_main_v9 (ix2 r j) k = ix2 r k := fun k =>
    funext fun a => Fin.ext (by match a with | ⟨0, _⟩ => rfl | ⟨1, _⟩ => rfl)
  have er : ∀ k : Fin 128, ridx_main_v9 (ix2 r j) k = ix2 k j := fun k =>
    funext fun a => Fin.ext (by match a with | ⟨0, _⟩ => rfl | ⟨1, _⟩ => rfl)
  simp only [erow, el, er]
  generalize val_main_v11 (F := Ideal) x1 = p
  rfl

/-- The gather of the projected rows at the edges' sources (a negative index wrapped first) and their scatter-add into
    zeros at the destinations are, operation for operation, `Chain.msg`. -/
theorem msg₁ : val_main_v24 (F := Ideal) x0 x1 x2 x5 = Chain.msg x1 x2 (val_main_v14 (F := Ideal) x0 x1 x5) := by
  unfold val_main_v24 val_main_v23 val_main_v22 val_main_v21 val_main_v20 val_main_v19 val_main_v18 val_main_v17
    val_main_v16 val_main_v15 val_main_cst_6 val_main_c_5 val_main_c Chain.msg
  rfl

/-- The aggregated rows times the destination-side factor broadcast along the row, plus the bias broadcast along the
    column, and the maximum with the zero word: entry `(r, j)` is `max (a[r,j] · p[r] + x6[j]) 0`. -/
theorem act₁ : val_main_v33 (F := Ideal) x0 x1 x2 x5 x6
      = Spec.act (val_main_v24 (F := Ideal) x0 x1 x2 x5) (val_main_v26 (F := Ideal) x2) x6 := by
  funext i
  obtain ⟨r, j, rfl⟩ : ∃ (r : Fin 50000) (j : Fin 128), i = ix2 r j := ⟨i 0, i 1, eq_ix2 i⟩
  rw [val_main_v33_apply, val_main_v32_apply, val_main_v29_apply, val_main_v28_apply, val_main_v27_apply,
    val_main_v31_apply, val_main_v30_apply, val_main_call2_v0_apply, val_main_call2_cst_apply]
  have erow : idx_main_v27 (idx_main_v28 (ix2 r j)) = ix1 r :=
    funext fun a => Fin.ext (by match a with | ⟨0, _⟩ => rfl)
  have ecol : idx_main_v30 (idx_main_v31 (ix2 r j)) = ix1 j :=
    funext fun a => Fin.ext (by match a with | ⟨0, _⟩ => rfl)
  rw [erow, ecol]
  generalize val_main_v24 (F := Ideal) x0 x1 x2 x5 = a
  generalize val_main_v26 (F := Ideal) x2 = p
  rfl

/-! ### The second layer: the same three stages over the first layer's result -/

/-- Entry `(r, j)` is `(∑ₖ h[r,k] · x7[k,j]) · p[r]`, `h` the first layer's result. -/
theorem proj₂ : val_main_v48 (F := Ideal) x0 x1 x2 x5 x6 x7
      = Spec.proj (val_main_v33 (F := Ideal) x0 x1 x2 x5 x6) x7 (val_main_v45 (F := Ideal) x1) := by
  funext i
  obtain ⟨r, j, rfl⟩ : ∃ (r : Fin 50000) (j : Fin 128), i = ix2 r j := ⟨i 0, i 1, eq_ix2 i⟩
  rw [val_main_v48_apply, val_main_v43_apply, val_main_v47_apply, val_main_v46_apply]
  have erow : idx_main_v46 (idx_main_v47 (ix2 r j)) = ix1 r :=
    funext fun a => Fin.ext (by match a with | ⟨0, _⟩ => rfl)
  have el : ∀ k : Fin 128, lidx_main_v43 (ix2 r j) k = ix2 r k := fun k =>
    funext fun a => Fin.ext (by match a with | ⟨0, _⟩ => rfl | ⟨1, _⟩ => rfl)
  have er : ∀ k : Fin 128, ridx_main_v43 (ix2 r j) k = ix2 k j := fun k =>
    funext fun a => Fin.ext (by match a with | ⟨0, _⟩ => rfl | ⟨1, _⟩ => rfl)
  simp only [erow, el, er]
  generalize val_main_v33 (F := Ideal) x0 x1 x2 x5 x6 = h
  generalize val_main_v45 (F := Ideal) x1 = p
  rfl

/-- The second round of message passing is `Chain.msg` of the second projection. -/
theorem msg₂ : val_main_v58 (F := Ideal) x0 x1 x2 x5 x6 x7
      = Chain.msg x1 x2 (val_main_v48 (F := Ideal) x0 x1 x2 x5 x6 x7) := by
  unfold val_main_v58 val_main_v57 val_main_v56 val_main_v55 val_main_v54 val_main_v53 val_main_v52 val_main_v51
    val_main_v50 val_main_v49 val_main_cst_16 val_main_c_15 val_main_c_14 Chain.msg
  rfl

/-- Entry `(r, j)` is `max (a[r,j] · p[r] + x8[j]) 0`, `a` the second round's aggregate. -/
theorem act₂ : val_main_v67 (F := Ideal) x0 x1 x2 x5 x6 x7 x8
      = Spec.act (val_main_v58 (F := Ideal) x0 x1 x2 x5 x6 x7) (val_main_v60 (F := Ideal) x2) x8 := by
  funext i
  obtain ⟨r, j, rfl⟩ : ∃ (r : Fin 50000) (j : Fin 128), i = ix2 r j := ⟨i 0, i 1, eq_ix2 i⟩
  rw [val_main_v67_apply, val_main_v66_apply, val_main_v63_apply, val_main_v62_apply, val_main_v61_apply,
    val_main_v65_apply, val_main_v64_apply, val_main_call5_v0_apply, val_main_call5_cst_apply]
  have erow : idx_main_v61 (idx_main_v62 (ix2 r j)) = ix1 r :=
    funext fun a => Fin.ext (by match a with | ⟨0, _⟩ => rfl)
  have ecol : idx_main_v64 (idx_main_v65 (ix2 r j)) = ix1 j :=
    funext fun a => Fin.ext (by match a with | ⟨0, _⟩ => rfl)
  rw [erow, ecol]
  generalize val_main_v58 (F := Ideal) x0 x1 x2 x5 x6 x7 = a
  generalize val_main_v60 (F := Ideal) x2 = p
  rfl

/-- Both layers composed: the last stage of the node features as a function of the arguments. -/
theorem layers : val_main_v67 (F := Ideal) x0 x1 x2 x5 x6 x7 x8
      = Spec.act (Chain.msg x1 x2 (Spec.proj (Spec.act (Chain.msg x1 x2 (Spec.proj x0 x5 (Chain.deg x1))) (Chain.deg x2) x6)
          x7 (Chain.deg x1))) (Chain.deg x2) x8 := by
  rw [act₂, msg₂, proj₂, act₁, msg₁, proj₁, deg_src₁, deg_dst₁, deg_src₂, deg_dst₂]

/-! ### The classifier's inputs and arithmetic -/

/-- The rows of the node features gathered at the edge pairs' first endpoints (a negative index wrapped first) are
    `Chain.gat`. -/
theorem gat_src : val_main_v74 (F := Ideal) x0 x1 x2 x3 x5 x6 x7 x8
      = Chain.gat x3 (val_main_v67 (F := Ideal) x0 x1 x2 x5 x6 x7 x8) := by
  unfold val_main_v74 val_main_v73 val_main_v72 val_main_v71 val_main_v70 val_main_v69 val_main_v68 val_main_c_19
    val_main_c_18 Chain.gat
  rfl

/-- The same at the second endpoints. -/
theorem gat_dst : val_main_v81 (F := Ideal) x0 x1 x2 x4 x5 x6 x7 x8
      = Chain.gat x4 (val_main_v67 (F := Ideal) x0 x1 x2 x5 x6 x7 x8) := by
  unfold val_main_v81 val_main_v80 val_main_v79 val_main_v78 val_main_v77 val_main_v76 val_main_v75 val_main_c_21
    val_main_c_20 Chain.gat
  rfl

/-- The last eleven stages — join the two gathered arrays along the feature axis, contract with the weights, add the
    bias, negate, exponentiate, add one, divide one by the sum — written out over the two gathered arrays. -/
theorem classifier : val_main_v92 (F := Ideal) x0 x1 x2 x3 x4 x5 x6 x7 x8 x9 x10
      = Host.divf (F := Ideal) (broadcastInDim S200000x2 ![] bcast_S_S200000x2 (constant (F := Ideal) S_ .f32 0x3F800000#32))
        (addf (broadcastInDim S200000x2 ![] bcast_S_S200000x2 (constant (F := Ideal) S_ .f32 0x3F800000#32))
          (Host.exp (Host.negf (addf (Host.dotGeneral (F := Ideal) (φ₁ := .f32) (φ₂ := .f32) dot_S200000x256_S256x2_S200000x2_1_0_0_1_n_n none
              (concatenate S200000x256 1 [⟨S200000x128, (val_main_v74 (F := Ideal) x0 x1 x2 x3 x5 x6 x7 x8 : FVec Ideal S200000x128 .f32)⟩, ⟨S200000x128, (val_main_v81 (F := Ideal) x0 x1 x2 x4 x5 x6 x7 x8 : FVec Ideal S200000x128 .f32)⟩] concatenates_S200000x128_S200000x128_S200000x256_d1) (x9 : FVec Ideal S256x2 .f32))
            (broadcastInDim S200000x2 ![0, 1] bcast_S1x2_S200000x2_0_1 (broadcastInDim S1x2 ![1] bcast_S2_S1x2_1 (x10 : FVec Ideal S2 .f32))))))) := by
  unfold val_main_v92 val_main_v91 val_main_v90 val_main_v89 val_main_v88 val_main_v87 val_main_v86 val_main_v85
    val_main_v84 val_main_v83 val_main_v82 val_main_cst_23 val_main_cst_22
  rfl

end Stages

variable (m : (ℓ : Loc nD τ sig) → Buf (Elt Ideal) ℓ) (c : Dev nD)

/-- The node features after both layers, as a function of the program's arguments. -/
def hidden : Spec.Feat.Idx → EReal :=
  Spec.act (Chain.msg (m ((c.tc : Thread nD τ).loc main_arg1)) (m ((c.tc : Thread nD τ).loc main_arg2))
      (Spec.proj (Spec.act (Chain.msg (m ((c.tc : Thread nD τ).loc main_arg1)) (m ((c.tc : Thread nD τ).loc main_arg2))
          (Spec.proj (m ((c.tc : Thread nD τ).loc main_arg0)) (m ((c.tc : Thread nD τ).loc main_arg5)) (Chain.deg (m ((c.tc : Thread nD τ).loc main_arg1)))))
        (Chain.deg (m ((c.tc : Thread nD τ).loc main_arg2))) (m ((c.tc : Thread nD τ).loc main_arg6)))
      (m ((c.tc : Thread nD τ).loc main_arg7)) (Chain.deg (m ((c.tc : Thread nD τ).loc main_arg1)))))
    (Chain.deg (m ((c.tc : Thread nD τ).loc main_arg2))) (m ((c.tc : Thread nD τ).loc main_arg8))

/-- The first result is `hidden`. -/
theorem out0_eq : Cert.ReferenceIdeal.Value.res_out0 (F := Ideal) m c = hidden m c := by
  refine (Read.val_main_v67_eq (F := Ideal) m c).trans ?_
  unfold hidden
  exact layers _ _ _ _ _ _ _

/-- The second result is the classifier's arithmetic — join the two gathered endpoint-feature arrays along the feature
    axis, contract with the weights, add the bias, apply `1 / (1 + exp (−·))` — over `hidden` gathered at the two endpoint lists. -/
theorem out1_eq : Cert.ReferenceIdeal.Value.res_out1 (F := Ideal) m c
      = Host.divf (F := Ideal) (broadcastInDim S200000x2 ![] bcast_S_S200000x2 (constant (F := Ideal) S_ .f32 0x3F800000#32))
        (addf (broadcastInDim S200000x2 ![] bcast_S_S200000x2 (constant (F := Ideal) S_ .f32 0x3F800000#32))
          (Host.exp (Host.negf (addf (Host.dotGeneral (F := Ideal) (φ₁ := .f32) (φ₂ := .f32) dot_S200000x256_S256x2_S200000x2_1_0_0_1_n_n none
              (concatenate S200000x256 1 [⟨S200000x128, (Chain.gat (m ((c.tc : Thread nD τ).loc main_arg3)) (hidden m c) : FVec Ideal S200000x128 .f32)⟩, ⟨S200000x128, (Chain.gat (m ((c.tc : Thread nD τ).loc main_arg4)) (hidden m c) : FVec Ideal S200000x128 .f32)⟩] concatenates_S200000x128_S200000x128_S200000x256_d1) (m ((c.tc : Thread nD τ).loc main_arg9) : FVec Ideal S256x2 .f32))
            (broadcastInDim S200000x2 ![0, 1] bcast_S1x2_S200000x2_0_1 (broadcastInDim S1x2 ![1] bcast_S2_S1x2_1 (m ((c.tc : Thread nD τ).loc main_arg10) : FVec Ideal S2 .f32))))))) := by
  refine (Read.val_main_v92_eq (F := Ideal) m c).trans ?_
  rw [classifier, gat_src, gat_dst]
  have hh : Read.val_main_v67 (F := Ideal) (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6))
      (m ((c.tc : Thread nD τ).loc main_arg7)) (m ((c.tc : Thread nD τ).loc main_arg8)) = hidden m c :=
    (Read.val_main_v67_eq (F := Ideal) m c).symm.trans (out0_eq m c)
  rw [hh]

end Cert.RefSide

end
-- ==== Proof.RefScore.lean ====
/- The reference's classifier, index by index: the 256-long contraction over the two joined endpoint-feature arrays splits
   into its two 128-long halves (`Spec.sum_halves`), and `1 / (1 + exp (−x))` is the logistic function on the extended
   reals, so the whole is `Spec.score`. -/
import proofs.«171592_j34720515620910_1_alg».proof.Proof.Gen.ReferenceIdeal
import proofs.«171592_j34720515620910_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.RefScore

open Idealize.ShloMosaic Idealize.ShloMosaic.ValueIdx
open Cert.ReferenceIdeal Cert.ReferenceIdeal.Gen
open scoped BigOperators

/-- The float word `0x3F800000` is the number one. -/
theorem word_one : Ideal.ofBits .f32 0x3F800000#32 = 1 := by
  simp [Ideal.ofBits, Ideal.ieee, -EReal.coe_mul]; norm_num

/-- The scalar one, spread over the whole score array, reads one everywhere. -/
theorem ones_apply (i : S200000x2.Idx) :
    broadcastInDim S200000x2 ![] bcast_S_S200000x2 (constant (F := Ideal) S_ .f32 0x3F800000#32) i = (1 : EReal) := by
  refine (broadcastInDim_apply _ bcast_S_S200000x2 _ i (fun a => a.elim0) (fun a => a.elim0)).trans ?_
  exact word_one

/-- The bias, first laid along a unit row, then repeated down the rows, reads its column's entry. -/
theorem bias_apply (bc : FVec Ideal S2 .f32) (e : Fin 200000) (j : Fin 2) :
    broadcastInDim S200000x2 ![0, 1] bcast_S1x2_S200000x2_0_1 (broadcastInDim S1x2 ![1] bcast_S2_S1x2_1 bc) (ix2 e j) = bc (ix1 j) := by
  refine (broadcastInDim_apply _ bcast_S1x2_S200000x2_0_1 _ (ix2 e j) (ix2 (⟨0, Nat.one_pos⟩ : Fin 1) j) (fun a => match a with
    | ⟨0, _⟩ => by show 0 = if (1 : Nat) = 1 then 0 else e.val; rw [if_pos rfl]
    | ⟨1, _⟩ => by show j.val = if (2 : Nat) = 1 then 0 else j.val; rw [if_neg (by decide)])).trans ?_
  exact broadcastInDim_apply _ bcast_S2_S1x2_1 bc (ix2 (⟨0, Nat.one_pos⟩ : Fin 1) j) (ix1 j) (fun a => match a with
    | ⟨0, _⟩ => by show j.val = if (2 : Nat) = 1 then 0 else j.val; rw [if_neg (by decide)])

/-- The contraction's dimension numbers: rows of the joined features against columns of the weights. -/
abbrev D := dot_S200000x256_S256x2_S200000x2_1_0_0_1_n_n

/-- The left operand is read at the output's row … -/
theorem lhs_row (i : S200000x2.Idx) (q : D.contr.Idx) : (D.lhsIdx i q 0).val = (i 0).val := by
  unfold DotDims.lhsIdx
  rw [dif_neg (show ¬(0 : Fin S200000x256.rank) ∈ D.lhsBatch by decide), dif_pos (show (0 : Fin S200000x256.rank) ∈ D.lhsNonContracting by decide)]
  rfl
/-- … and at the contracted position along its columns; -/
theorem lhs_col (i : S200000x2.Idx) (q : D.contr.Idx) : (D.lhsIdx i q 1).val = (q ⟨0, by decide⟩).val :=
  D.lhsIdx_val_of_single rfl i q
/-- the right operand is read at the contracted position along its rows … -/
theorem rhs_row (i : S200000x2.Idx) (q : D.contr.Idx) : (D.rhsIdx i q 0).val = (q ⟨0, by decide⟩).val :=
  D.rhsIdx_val_of_single rfl i q
/-- … and at the output's column. -/
theorem rhs_col (i : S200000x2.Idx) (q : D.contr.Idx) : (D.rhsIdx i q 1).val = (i 1).val := by
  unfold DotDims.rhsIdx
  rw [dif_neg (show ¬(1 : Fin S256x2.rank) ∈ D.rhsBatch by decide), dif_pos (show (1 : Fin S256x2.rank) ∈ D.rhsNonContracting by decide)]
  rfl

/-- The contraction at an index is the sum over the 256 joined features. -/
theorem dot_apply (y : FVec Ideal S200000x256 .f32) (wc : FVec Ideal S256x2 .f32) (e : Fin 200000) (j : Fin 2) :
    Host.dotGeneral (F := Ideal) D none y wc (ix2 e j) = ∑ k : Fin 256, y (ix2 e k) * wc (ix2 k j) := by
  simp only [Host.dotGeneral]
  rw [Ideal.dotGeneral_apply, ← Equiv.sum_comp (contrEquiv1 D 256 rfl rfl).symm]
  refine Finset.sum_congr rfl fun k _ => ?_
  have hk := contrEquiv1_symm_val D 256 rfl rfl k
  have el : D.lhsIdx (ix2 e j) ((contrEquiv1 D 256 rfl rfl).symm k) = ix2 e k := funext fun a => Fin.ext (by
    match a with
    | ⟨0, _⟩ => exact lhs_row _ _
    | ⟨1, _⟩ => exact (lhs_col _ _).trans hk)
  have er : D.rhsIdx (ix2 e j) ((contrEquiv1 D 256 rfl rfl).symm k) = ix2 k j := funext fun a => Fin.ext (by
    match a with
    | ⟨0, _⟩ => exact (rhs_row _ _).trans hk
    | ⟨1, _⟩ => exact rhs_col _ _)
  rw [el, er]

/-- The joined array's first 128 columns are the first piece's … -/
theorem join_left (hs hd : FVec Ideal S200000x128 .f32) (e : Fin 200000) (k : Fin 128) :
    concatenate S200000x256 1 [⟨S200000x128, hs⟩, ⟨S200000x128, hd⟩] concatenates_S200000x128_S200000x128_S200000x256_d1
      (ix2 e (⟨k.val, by omega⟩ : Fin 256)) = hs (ix2 e k) :=
  concatenate_pair_apply_left (t := S200000x256) (s₁ := S200000x128) (s₂ := S200000x128) (1 : Fin 2) hs hd
    concatenates_S200000x128_S200000x128_S200000x256_d1 _ rfl (ix2 e k) (fun b => match b with
      | ⟨0, _⟩ => rfl
      | ⟨1, _⟩ => rfl)

/-- … and its last 128 columns the second piece's. -/
theorem join_right (hs hd : FVec Ideal S200000x128 .f32) (e : Fin 200000) (k : Fin 128) :
    concatenate S200000x256 1 [⟨S200000x128, hs⟩, ⟨S200000x128, hd⟩] concatenates_S200000x128_S200000x128_S200000x256_d1
      (ix2 e (⟨128 + k.val, by omega⟩ : Fin 256)) = hd (ix2 e k) :=
  concatenate_pair_apply_right (t := S200000x256) (s₁ := S200000x128) (s₂ := S200000x128) (1 : Fin 2) hs hd
    concatenates_S200000x128_S200000x128_S200000x256_d1 _ rfl rfl (ix2 e k) (fun b => match b with
      | ⟨0, _⟩ => fun _ => rfl
      | ⟨1, _⟩ => fun h => absurd rfl h) (by show k.val + 128 = 128 + k.val; omega)

/-- Join, contract, add the bias, apply `1 / (1 + exp (−·))`: that is `Spec.score`. -/
theorem classify_eq (hs hd : FVec Ideal S200000x128 .f32) (wc : FVec Ideal S256x2 .f32) (bc : FVec Ideal S2 .f32) :
    Host.divf (F := Ideal) (broadcastInDim S200000x2 ![] bcast_S_S200000x2 (constant (F := Ideal) S_ .f32 0x3F800000#32))
        (addf (broadcastInDim S200000x2 ![] bcast_S_S200000x2 (constant (F := Ideal) S_ .f32 0x3F800000#32))
          (Host.exp (Host.negf (addf (Host.dotGeneral (F := Ideal) dot_S200000x256_S256x2_S200000x2_1_0_0_1_n_n none
              (concatenate S200000x256 1 [⟨S200000x128, hs⟩, ⟨S200000x128, hd⟩] concatenates_S200000x128_S200000x128_S200000x256_d1) wc)
            (broadcastInDim S200000x2 ![0, 1] bcast_S1x2_S200000x2_0_1 (broadcastInDim S1x2 ![1] bcast_S2_S1x2_1 bc))))))
      = Spec.score hs hd wc bc := by
  funext i
  obtain ⟨e, j, rfl⟩ : ∃ (e : Fin 200000) (j : Fin 2), i = ix2 e j := ⟨i 0, i 1, eq_ix2 i⟩
  -- the quotient, the sum, the exponential and the negation, each read at the index
  show Ideal.div (broadcastInDim S200000x2 ![] bcast_S_S200000x2 (constant (F := Ideal) S_ .f32 0x3F800000#32) (ix2 e j))
      (broadcastInDim S200000x2 ![] bcast_S_S200000x2 (constant (F := Ideal) S_ .f32 0x3F800000#32) (ix2 e j)
        + Ideal.exp (-(Host.dotGeneral (F := Ideal) D none
            (concatenate S200000x256 1 [⟨S200000x128, hs⟩, ⟨S200000x128, hd⟩] concatenates_S200000x128_S200000x128_S200000x256_d1) wc (ix2 e j)
          + broadcastInDim S200000x2 ![0, 1] bcast_S1x2_S200000x2_0_1 (broadcastInDim S1x2 ![1] bcast_S2_S1x2_1 bc) (ix2 e j))))
    = Ideal.logistic ((∑ k : Fin 128, hs (ix2 e k) * wc (ix2 (⟨k.val, by omega⟩ : Fin 256) j)
      + ∑ k : Fin 128, hd (ix2 e k) * wc (ix2 (⟨128 + k.val, by omega⟩ : Fin 256) j)) + bc (ix1 j))
  rw [ones_apply, bias_apply, dot_apply, Spec.sum_halves]
  simp only [join_left, join_right]
  rfl

end Cert.RefScore

end
-- ==== Proof.lean ====
/- The proof of `Cert.Claim` for a two-layer graph convolution with an edge-pair classifier.

   Both programs compute, over the extended reals: per node the factors `deg` = (max 1 (number of edges at the node))^(−1/2)
   for the edges' source list and their destination list; twice, a layer `act (msg (proj x W p_out)) p_in b` — `proj`
   multiplies the node features by the weights and scales row r by p_out[r], `msg` gathers the rows at the edges' sources
   and sums them at the destinations, `act` scales row r by p_in[r], adds the bias and clamps at zero —; and for each of
   the 200000 edge pairs the logistic function of the two endpoints' 256 joined features against the classifier's weights
   plus its bias. The kernel program computes the dense stages in five tiled regions (row blocks of 5000) around the same
   host gathers and scatter-adds, pads the classifier to 128 columns, splits its contraction into the two endpoints'
   128-long halves and keeps two columns; the reference computes whole arrays. The two agree because a row block of a
   row-wise function is the function of the row block, a sum over 256 terms is the sum of its two halves, the padding
   never meets the kept columns, and `1 / (1 + exp (−x))` is the logistic function. No finiteness of the inputs is used.

   Proof/Spec.lean states the three dense stages index by index; Proof/KChain.lean and Proof/RChain.lean name the host
   gather / scatter-add / power stretches of each program as whole functions (equal by reflexivity across the programs);
   Proof/RegionProj.lean, RegionAct.lean, RegionPair.lean give each region's output array as one function of its inputs;
   Proof/FoldA.lean and FoldB.lean read the kernel program's buffer contents back through its segments; Proof/Tail.lean
   cuts the padded classifier back; Proof/KernelRun.lean and KernelValue.lean are the kernel program's run with both
   results named; Proof/RefSide.lean and RefScore.lean read the reference's run. The frames are the programs' runs with
   the results dropped; `preserves` has no entry to prove. -/
import proofs.«171592_j34720515620910_1_alg».proof.Defs
import proofs.«171592_j34720515620910_1_alg».proof.Proof.Gen.Kernel
import proofs.«171592_j34720515620910_1_alg».proof.Proof.Gen.Kernel.Skeleton
import proofs.«171592_j34720515620910_1_alg».proof.Proof.Gen.Kernel.Launch
import proofs.«171592_j34720515620910_1_alg».proof.Proof.Gen.Kernel.Points
import proofs.«171592_j34720515620910_1_alg».proof.Proof.Gen.Kernel.Frame
import proofs.«171592_j34720515620910_1_alg».proof.Proof.Gen.KernelIdeal
import proofs.«171592_j34720515620910_1_alg».proof.Proof.Gen.KernelIdeal.Skeleton
import proofs.«171592_j34720515620910_1_alg».proof.Proof.Gen.KernelIdeal.Launch
import proofs.«171592_j34720515620910_1_alg».proof.Proof.Gen.KernelIdeal.Points
import proofs.«171592_j34720515620910_1_alg».proof.Proof.Gen.KernelIdeal.Frame
import proofs.«171592_j34720515620910_1_alg».proof.Proof.Gen.ReferenceIdeal
import proofs.«171592_j34720515620910_1_alg».proof.Proof.Gen.ReferenceIdeal.Run
import proofs.«171592_j34720515620910_1_alg».proof.Proof.Gen.Pre_finite_inputs
import proofs.«171592_j34720515620910_1_alg».proof.Proof.KernelValue
import proofs.«171592_j34720515620910_1_alg».proof.Proof.RefSide
import proofs.«171592_j34720515620910_1_alg».proof.Proof.RefScore
import Idealize.ShloMosaic.Adequacy
import Idealize.ShloMosaic.Init

set_option maxRecDepth 16384

noncomputable section

namespace Cert.Proof

open Idealize.ShloMosaic Idealize.SL.Sem Cert.Kernel

/-- The two programs' host stretches are the same functions. -/
theorem deg_same (idx : (⟨Cert.KernelIdeal.S800000, .i32⟩ : BufTy).Contents (Elt Ideal)) :
    Cert.ReferenceIdeal.Chain.deg idx = Cert.KernelIdeal.Chain.deg idx := rfl
theorem msg_same (src dst : (⟨Cert.KernelIdeal.S800000, .i32⟩ : BufTy).Contents (Elt Ideal))
    (h : (⟨Cert.KernelIdeal.S50000x128, .f32⟩ : BufTy).Contents (Elt Ideal)) :
    Cert.ReferenceIdeal.Chain.msg src dst h = Cert.KernelIdeal.Chain.msg src dst h := rfl
theorem gat_same (idx : (⟨Cert.KernelIdeal.S200000, .i32⟩ : BufTy).Contents (Elt Ideal))
    (h : (⟨Cert.KernelIdeal.S50000x128, .f32⟩ : BufTy).Contents (Elt Ideal)) :
    Cert.ReferenceIdeal.Chain.gat idx h = Cert.KernelIdeal.Chain.gat idx h := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs run to the same two results. -/
theorem algebraic : Cert.algebraic_KernelIdeal_ReferenceIdeal := by
  intro m ρ m' ρ' _ hagree
  have hidden_same : ∀ c, Cert.RefSide.hidden m' c = Cert.KernelIdeal.Fold.hidden m c := by
    intro c
    unfold Cert.RefSide.hidden Cert.KernelIdeal.Fold.hidden
    rw [(hagree c).1, (hagree c).2.1, (hagree c).2.2.1, (hagree c).2.2.2.2.2.1, (hagree c).2.2.2.2.2.2.1, (hagree c).2.2.2.2.2.2.2.1, (hagree c).2.2.2.2.2.2.2.2.1]
    simp only [deg_same, msg_same]
  refine ⟨fun c => Cert.KernelIdeal.Fold.hidden m c,
    fun c => Cert.Spec.score
      (Cert.KernelIdeal.Chain.gat (m ((c.tc : Thread Cert.KernelIdeal.nD Cert.KernelIdeal.τ).loc Cert.KernelIdeal.main_arg3)) (Cert.KernelIdeal.Fold.hidden m c))
      (Cert.KernelIdeal.Chain.gat (m ((c.tc : Thread Cert.KernelIdeal.nD Cert.KernelIdeal.τ).loc Cert.KernelIdeal.main_arg4)) (Cert.KernelIdeal.Fold.hidden m c))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.RefSide.out0_eq m' c).trans (hidden_same c)
  · refine (Cert.RefSide.out1_eq m' c).trans ?_
    rw [Cert.RefScore.classify_eq, hidden_same c, (hagree c).2.2.2.1, (hagree c).2.2.2.2.1, (hagree c).2.2.2.2.2.2.2.2.2.1, (hagree c).2.2.2.2.2.2.2.2.2.2]
    simp only [gat_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
